-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16x3 : Shape := ⟨3, ![2000000, 16, 3]⟩
abbrev S_ : Shape := ⟨0, ![]⟩

class Facts : Prop where
  bcast_S_S2000000x16x3 : S_.BroadcastsInDim S2000000x16x3 (![] : Fin 0 → Fin S2000000x16x3.rank)
  reducesTo_S2000000x16x3_S_d0_1_2 : S2000000x16x3.ReducesTo [0, 1, 2] S_
  h_S_ : 0 < S_.numel

variable [Facts]

def fn {F : FTy → Type} [FloatOps F] (main_arg0 : FVec F S2000000x16x3 .f32) : IVec S_ 1 :=
  let main_v0 : FVec F S2000000x16x3 .f32 := Host.absf main_arg0
  let main_cst : FVec F S_ .f32 := constant S_ .f32 0x7F800000#32
  let main_v1 : FVec F S2000000x16x3 .f32 := broadcastInDim S2000000x16x3 ![] bcast_S_S2000000x16x3 main_cst
  let main_v2 : IVec S2000000x16x3 1 := cmpf .olt main_v0 main_v1
  let main_c : IVec S_ 1 := constantI S_ 1 1#1
  let main_v3 : IVec S_ 1 := (fun x v => Host.reduce IntOp.andi x v reducesTo_S2000000x16x3_S_d0_1_2 h_S_) main_v2 main_c
  main_v3
-- ==== Kernel.lean ====
abbrev S2000000x16x3 : Shape := ⟨3, ![2000000, 16, 3]⟩
abbrev S2000000x48 : Shape := ⟨2, ![2000000, 48]⟩
abbrev S5000x48 : Shape := ⟨2, ![5000, 48]⟩
abbrev S5000x3 : Shape := ⟨2, ![5000, 3]⟩
abbrev S5000x1 : Shape := ⟨2, ![5000, 1]⟩

abbrev nBuf : Space → Nat
  | .hbm => 4
  | .vmem => 4
  | .smem => 0
  | _ => 0

abbrev bufTy : (tb : Table) → Fin (tcTables nBuf tb) → BufTy
  | .hbm, ⟨0, _⟩ => ⟨S2000000x16x3, .f32⟩
  | .hbm, ⟨1, _⟩ => ⟨S2000000x48, .f32⟩
  | .hbm, ⟨2, _⟩ => ⟨S2000000x48, .f32⟩
  | .hbm, ⟨3, _⟩ => ⟨S2000000x16x3, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | _, _ => ⟨S2000000x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2000000x16x3_S2000000x48 : S2000000x16x3.ShapeCasts S2000000x48
  inb_S5000x48_S5000x3_0_0 : ∀ a, (![0, 0] : Fin 2 → Nat) a + S5000x3.size a ≤ S5000x48.size a
  h_S5000x3 : 0 < S5000x3.numel
  shapeCasts_S5000x3_S5000x3 : S5000x3.ShapeCasts S5000x3
  slices_S5000x3_o0_0_S5000x1 : S5000x3.Slices ![0, 0] S5000x1
  natLt_1_32 : 1 < 32
  broadcasts_S5000x1_S5000x3 : S5000x1.Broadcasts S5000x3
  inb_S5000x48_S5000x3_0_3 : ∀ a, (![0, 3] : Fin 2 → Nat) a + S5000x3.size a ≤ S5000x48.size a
  inb_S5000x48_S5000x3_0_6 : ∀ a, (![0, 6] : Fin 2 → Nat) a + S5000x3.size a ≤ S5000x48.size a
  inb_S5000x48_S5000x3_0_9 : ∀ a, (![0, 9] : Fin 2 → Nat) a + S5000x3.size a ≤ S5000x48.size a
  inb_S5000x48_S5000x3_0_12 : ∀ a, (![0, 12] : Fin 2 → Nat) a + S5000x3.size a ≤ S5000x48.size a
  inb_S5000x48_S5000x3_0_15 : ∀ a, (![0, 15] : Fin 2 → Nat) a + S5000x3.size a ≤ S5000x48.size a
  inb_S5000x48_S5000x3_0_18 : ∀ a, (![0, 18] : Fin 2 → Nat) a + S5000x3.size a ≤ S5000x48.size a
  inb_S5000x48_S5000x3_0_21 : ∀ a, (![0, 21] : Fin 2 → Nat) a + S5000x3.size a ≤ S5000x48.size a
  inb_S5000x48_S5000x3_0_24 : ∀ a, (![0, 24] : Fin 2 → Nat) a + S5000x3.size a ≤ S5000x48.size a
  inb_S5000x48_S5000x3_0_27 : ∀ a, (![0, 27] : Fin 2 → Nat) a + S5000x3.size a ≤ S5000x48.size a
  inb_S5000x48_S5000x3_0_30 : ∀ a, (![0, 30] : Fin 2 → Nat) a + S5000x3.size a ≤ S5000x48.size a
  inb_S5000x48_S5000x3_0_33 : ∀ a, (![0, 33] : Fin 2 → Nat) a + S5000x3.size a ≤ S5000x48.size a
  inb_S5000x48_S5000x3_0_36 : ∀ a, (![0, 36] : Fin 2 → Nat) a + S5000x3.size a ≤ S5000x48.size a
  inb_S5000x48_S5000x3_0_39 : ∀ a, (![0, 39] : Fin 2 → Nat) a + S5000x3.size a ≤ S5000x48.size a
  inb_S5000x48_S5000x3_0_42 : ∀ a, (![0, 42] : Fin 2 → Nat) a + S5000x3.size a ≤ S5000x48.size a
  inb_S5000x48_S5000x3_0_45 : ∀ a, (![0, 45] : Fin 2 → Nat) a + S5000x3.size a ≤ S5000x48.size a
  concatenates_S5000x3_S5000x3_S5000x3_S5000x3_S5000x3_S5000x3_S5000x3_S5000x3_S5000x3_S5000x3_S5000x3_S5000x3_S5000x3_S5000x3_S5000x3_S5000x3_S5000x48_d1 : Shape.Concatenates [S5000x3, S5000x3, S5000x3, S5000x3, S5000x3, S5000x3, S5000x3, S5000x3, S5000x3, S5000x3, S5000x3, S5000x3, S5000x3, S5000x3, S5000x3, S5000x3] S5000x48 1
  inb_S5000x48_S5000x48_0_0 : ∀ a, (![0, 0] : Fin 2 → Nat) a + S5000x48.size a ≤ S5000x48.size a
  h_S5000x48 : 0 < S5000x48.numel
  shapeCasts_S2000000x48_S2000000x16x3 : S2000000x48.ShapeCasts S2000000x16x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S2000000x48.size a
  hwx0_0 : ∀ i : grid0.Coords, EltTy.bits .f32 = 32 ∨ (Rect.block (s := S2000000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S2000000x48.size a
  hwx0_1 : ∀ i : grid0.Coords, EltTy.bits .f32 = 32 ∨ (Rect.block (s := S2000000x48) S5000x48.size (cc0_transform_1 i) (hinb0_1 i)).WholeWords (EltTy.packing .f32)

variable [Facts₀]

abbrev win0_0 : Pipeline.Window sig grid0 :=
  Pipeline.Window.ofSpec (Memref.whole main_v0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x48.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x16x3 : Shape := ⟨3, ![2000000, 16, 3]⟩
abbrev S2000000x6x3 : Shape := ⟨3, ![2000000, 6, 3]⟩
abbrev S2000000x6x1 : Shape := ⟨3, ![2000000, 6, 1]⟩
abbrev S2000000x6 : Shape := ⟨2, ![2000000, 6]⟩
abbrev S_ : Shape := ⟨0, ![]⟩
abbrev S1 : Shape := ⟨1, ![1]⟩
abbrev S1x1x1 : Shape := ⟨3, ![1, 1, 1]⟩
abbrev S2000000x3x3 : Shape := ⟨3, ![2000000, 3, 3]⟩
abbrev S2000000x3x1 : Shape := ⟨3, ![2000000, 3, 1]⟩
abbrev S2000000x3 : Shape := ⟨2, ![2000000, 3]⟩
abbrev S2000000x1x3 : Shape := ⟨3, ![2000000, 1, 3]⟩

abbrev nBuf : Space → Nat
  | .hbm => 259
  | .vmem => 0
  | .smem => 0
  | _ => 0

abbrev hbmTy0_0 (i : Nat) : BufTy := match i % 128 with
  | 0 => ⟨S2000000x16x3, .f32⟩
  | 1 => ⟨S2000000x6x3, .f32⟩
  | 2 => ⟨S2000000x6x1, .f32⟩
  | 3 => ⟨S2000000x6, .f32⟩
  | 4 => ⟨S_, .f32⟩
  | 5 => ⟨S2000000x6, .f32⟩
  | 6 => ⟨S2000000x6, .i1⟩
  | 7 => ⟨S_, .i32⟩
  | 8 => ⟨S_, .i32⟩
  | 9 => ⟨S2000000x6, .i32⟩
  | 10 => ⟨S2000000x6, .i32⟩
  | 11 => ⟨S2000000x6, .i32⟩
  | 12 => ⟨S2000000x6, .i32⟩
  | 13 => ⟨S2000000x6, .i32⟩
  | 14 => ⟨S2000000x6, .i32⟩
  | 15 => ⟨S2000000x6, .i32⟩
  | 16 => ⟨S2000000x6x1, .i32⟩
  | 17 => ⟨S_, .i32⟩
  | 18 => ⟨S2000000x6x1, .i32⟩
  | 19 => ⟨S2000000x6x1, .i1⟩
  | 20 => ⟨S_, .i32⟩
  | 21 => ⟨S2000000x6x1, .i32⟩
  | 22 => ⟨S2000000x6x1, .i32⟩
  | 23 => ⟨S2000000x6x1, .i32⟩
  | 24 => ⟨S1, .i32⟩
  | 25 => ⟨S_, .i32⟩
  | 26 => ⟨S2000000x6x1, .i32⟩
  | 27 => ⟨S2000000x6x1, .i1⟩
  | 28 => ⟨S1x1x1, .i32⟩
  | 29 => ⟨S2000000x6x1, .i32⟩
  | 30 => ⟨S2000000x6x1, .i1⟩
  | 31 => ⟨S2000000x6x1, .i1⟩
  | 32 => ⟨S_, .i1⟩
  | 33 => ⟨S2000000x6, .i1⟩
  | 34 => ⟨S2000000x6x3, .f32⟩
  | 35 => ⟨S2000000x6x3, .i1⟩
  | 36 => ⟨S_, .f32⟩
  | 37 => ⟨S2000000x6x3, .f32⟩
  | 38 => ⟨S2000000x6x3, .f32⟩
  | 39 => ⟨S_, .i32⟩
  | 40 => ⟨S2000000x6, .i32⟩
  | 41 => ⟨S2000000x6, .i1⟩
  | 42 => ⟨S_, .i32⟩
  | 43 => ⟨S2000000x6, .i32⟩
  | 44 => ⟨S2000000x6, .i32⟩
  | 45 => ⟨S2000000x6, .i32⟩
  | 46 => ⟨S2000000x6x1, .i32⟩
  | 47 => ⟨S1, .i32⟩
  | 48 => ⟨S_, .i32⟩
  | 49 => ⟨S2000000x6x1, .i32⟩
  | 50 => ⟨S2000000x6x1, .i1⟩
  | 51 => ⟨S1x1x1, .i32⟩
  | 52 => ⟨S2000000x6x1, .i32⟩
  | 53 => ⟨S2000000x6x1, .i1⟩
  | 54 => ⟨S2000000x6x1, .i1⟩
  | 55 => ⟨S_, .i1⟩
  | 56 => ⟨S2000000x6, .i1⟩
  | 57 => ⟨S2000000x6, .i1⟩
  | 58 => ⟨S_, .i1⟩
  | 59 => ⟨S2000000x6, .i1⟩
  | 60 => ⟨S2000000x6, .i1⟩
  | 61 => ⟨S2000000x6x1, .i1⟩
  | 62 => ⟨S2000000x6x1, .f32⟩
  | 63 => ⟨S2000000x6x3, .f32⟩
  | 64 => ⟨S2000000x6x3, .f32⟩
  | 65 => ⟨S2000000x3x3, .f32⟩
  | 66 => ⟨S2000000x3x1, .f32⟩
  | 67 => ⟨S2000000x3, .f32⟩
  | 68 => ⟨S_, .f32⟩
  | 69 => ⟨S2000000x3, .f32⟩
  | 70 => ⟨S2000000x3, .i1⟩
  | 71 => ⟨S_, .i32⟩
  | 72 => ⟨S_, .i32⟩
  | 73 => ⟨S2000000x3, .i32⟩
  | 74 => ⟨S2000000x3, .i32⟩
  | 75 => ⟨S2000000x3, .i32⟩
  | 76 => ⟨S2000000x3, .i32⟩
  | 77 => ⟨S2000000x3, .i32⟩
  | 78 => ⟨S2000000x3, .i32⟩
  | 79 => ⟨S2000000x3, .i32⟩
  | 80 => ⟨S2000000x3x1, .i32⟩
  | 81 => ⟨S_, .i32⟩
  | 82 => ⟨S2000000x3x1, .i32⟩
  | 83 => ⟨S2000000x3x1, .i1⟩
  | 84 => ⟨S_, .i32⟩
  | 85 => ⟨S2000000x3x1, .i32⟩
  | 86 => ⟨S2000000x3x1, .i32⟩
  | 87 => ⟨S2000000x3x1, .i32⟩
  | 88 => ⟨S1, .i32⟩
  | 89 => ⟨S_, .i32⟩
  | 90 => ⟨S2000000x3x1, .i32⟩
  | 91 => ⟨S2000000x3x1, .i1⟩
  | 92 => ⟨S1x1x1, .i32⟩
  | 93 => ⟨S2000000x3x1, .i32⟩
  | 94 => ⟨S2000000x3x1, .i1⟩
  | 95 => ⟨S2000000x3x1, .i1⟩
  | 96 => ⟨S_, .i1⟩
  | 97 => ⟨S2000000x3, .i1⟩
  | 98 => ⟨S2000000x3x3, .f32⟩
  | 99 => ⟨S2000000x3x3, .i1⟩
  | 100 => ⟨S_, .f32⟩
  | 101 => ⟨S2000000x3x3, .f32⟩
  | 102 => ⟨S2000000x3x3, .f32⟩
  | 103 => ⟨S_, .i32⟩
  | 104 => ⟨S2000000x3, .i32⟩
  | 105 => ⟨S2000000x3, .i1⟩
  | 106 => ⟨S_, .i32⟩
  | 107 => ⟨S2000000x3, .i32⟩
  | 108 => ⟨S2000000x3, .i32⟩
  | 109 => ⟨S2000000x3, .i32⟩
  | 110 => ⟨S2000000x3x1, .i32⟩
  | 111 => ⟨S1, .i32⟩
  | 112 => ⟨S_, .i32⟩
  | 113 => ⟨S2000000x3x1, .i32⟩
  | 114 => ⟨S2000000x3x1, .i1⟩
  | 115 => ⟨S1x1x1, .i32⟩
  | 116 => ⟨S2000000x3x1, .i32⟩
  | 117 => ⟨S2000000x3x1, .i1⟩
  | 118 => ⟨S2000000x3x1, .i1⟩
  | 119 => ⟨S_, .i1⟩
  | 120 => ⟨S2000000x3, .i1⟩
  | 121 => ⟨S2000000x3, .i1⟩
  | 122 => ⟨S_, .i1⟩
  | 123 => ⟨S2000000x3, .i1⟩
  | 124 => ⟨S2000000x3, .i1⟩
  | 125 => ⟨S2000000x3x1, .i1⟩
  | 126 => ⟨S2000000x3x1, .f32⟩
  | 127 => ⟨S2000000x3x3, .f32⟩
  | _ => ⟨S2000000x16x3, .f32⟩

abbrev hbmTy0_1 (i : Nat) : BufTy := match i % 128 with
  | 0 => ⟨S2000000x3x3, .f32⟩
  | 1 => ⟨S2000000x3x3, .f32⟩
  | 2 => ⟨S2000000x3x1, .f32⟩
  | 3 => ⟨S2000000x3, .f32⟩
  | 4 => ⟨S_, .f32⟩
  | 5 => ⟨S2000000x3, .f32⟩
  | 6 => ⟨S2000000x3, .i1⟩
  | 7 => ⟨S_, .i32⟩
  | 8 => ⟨S_, .i32⟩
  | 9 => ⟨S2000000x3, .i32⟩
  | 10 => ⟨S2000000x3, .i32⟩
  | 11 => ⟨S2000000x3, .i32⟩
  | 12 => ⟨S2000000x3, .i32⟩
  | 13 => ⟨S2000000x3, .i32⟩
  | 14 => ⟨S2000000x3, .i32⟩
  | 15 => ⟨S2000000x3, .i32⟩
  | 16 => ⟨S2000000x3x1, .i32⟩
  | 17 => ⟨S_, .i32⟩
  | 18 => ⟨S2000000x3x1, .i32⟩
  | 19 => ⟨S2000000x3x1, .i1⟩
  | 20 => ⟨S_, .i32⟩
  | 21 => ⟨S2000000x3x1, .i32⟩
  | 22 => ⟨S2000000x3x1, .i32⟩
  | 23 => ⟨S2000000x3x1, .i32⟩
  | 24 => ⟨S1, .i32⟩
  | 25 => ⟨S_, .i32⟩
  | 26 => ⟨S2000000x3x1, .i32⟩
  | 27 => ⟨S2000000x3x1, .i1⟩
  | 28 => ⟨S1x1x1, .i32⟩
  | 29 => ⟨S2000000x3x1, .i32⟩
  | 30 => ⟨S2000000x3x1, .i1⟩
  | 31 => ⟨S2000000x3x1, .i1⟩
  | 32 => ⟨S_, .i1⟩
  | 33 => ⟨S2000000x3, .i1⟩
  | 34 => ⟨S2000000x3x3, .f32⟩
  | 35 => ⟨S2000000x3x3, .i1⟩
  | 36 => ⟨S_, .f32⟩
  | 37 => ⟨S2000000x3x3, .f32⟩
  | 38 => ⟨S2000000x3x3, .f32⟩
  | 39 => ⟨S_, .i32⟩
  | 40 => ⟨S2000000x3, .i32⟩
  | 41 => ⟨S2000000x3, .i1⟩
  | 42 => ⟨S_, .i32⟩
  | 43 => ⟨S2000000x3, .i32⟩
  | 44 => ⟨S2000000x3, .i32⟩
  | 45 => ⟨S2000000x3, .i32⟩
  | 46 => ⟨S2000000x3x1, .i32⟩
  | 47 => ⟨S1, .i32⟩
  | 48 => ⟨S_, .i32⟩
  | 49 => ⟨S2000000x3x1, .i32⟩
  | 50 => ⟨S2000000x3x1, .i1⟩
  | 51 => ⟨S1x1x1, .i32⟩
  | 52 => ⟨S2000000x3x1, .i32⟩
  | 53 => ⟨S2000000x3x1, .i1⟩
  | 54 => ⟨S2000000x3x1, .i1⟩
  | 55 => ⟨S_, .i1⟩
  | 56 => ⟨S2000000x3, .i1⟩
  | 57 => ⟨S2000000x3, .i1⟩
  | 58 => ⟨S_, .i1⟩
  | 59 => ⟨S2000000x3, .i1⟩
  | 60 => ⟨S2000000x3, .i1⟩
  | 61 => ⟨S2000000x3x1, .i1⟩
  | 62 => ⟨S2000000x3x1, .f32⟩
  | 63 => ⟨S2000000x3x3, .f32⟩
  | 64 => ⟨S2000000x3x3, .f32⟩
  | 65 => ⟨S2000000x3x3, .f32⟩
  | 66 => ⟨S2000000x3x1, .f32⟩
  | 67 => ⟨S2000000x3, .f32⟩
  | 68 => ⟨S_, .f32⟩
  | 69 => ⟨S2000000x3, .f32⟩
  | 70 => ⟨S2000000x3, .i1⟩
  | 71 => ⟨S_, .i32⟩
  | 72 => ⟨S_, .i32⟩
  | 73 => ⟨S2000000x3, .i32⟩
  | 74 => ⟨S2000000x3, .i32⟩
  | 75 => ⟨S2000000x3, .i32⟩
  | 76 => ⟨S2000000x3, .i32⟩
  | 77 => ⟨S2000000x3, .i32⟩
  | 78 => ⟨S2000000x3, .i32⟩
  | 79 => ⟨S2000000x3, .i32⟩
  | 80 => ⟨S2000000x3x1, .i32⟩
  | 81 => ⟨S_, .i32⟩
  | 82 => ⟨S2000000x3x1, .i32⟩
  | 83 => ⟨S2000000x3x1, .i1⟩
  | 84 => ⟨S_, .i32⟩
  | 85 => ⟨S2000000x3x1, .i32⟩
  | 86 => ⟨S2000000x3x1, .i32⟩
  | 87 => ⟨S2000000x3x1, .i32⟩
  | 88 => ⟨S1, .i32⟩
  | 89 => ⟨S_, .i32⟩
  | 90 => ⟨S2000000x3x1, .i32⟩
  | 91 => ⟨S2000000x3x1, .i1⟩
  | 92 => ⟨S1x1x1, .i32⟩
  | 93 => ⟨S2000000x3x1, .i32⟩
  | 94 => ⟨S2000000x3x1, .i1⟩
  | 95 => ⟨S2000000x3x1, .i1⟩
  | 96 => ⟨S_, .i1⟩
  | 97 => ⟨S2000000x3, .i1⟩
  | 98 => ⟨S2000000x3x3, .f32⟩
  | 99 => ⟨S2000000x3x3, .i1⟩
  | 100 => ⟨S_, .f32⟩
  | 101 => ⟨S2000000x3x3, .f32⟩
  | 102 => ⟨S2000000x3x3, .f32⟩
  | 103 => ⟨S_, .i32⟩
  | 104 => ⟨S2000000x3, .i32⟩
  | 105 => ⟨S2000000x3, .i1⟩
  | 106 => ⟨S_, .i32⟩
  | 107 => ⟨S2000000x3, .i32⟩
  | 108 => ⟨S2000000x3, .i32⟩
  | 109 => ⟨S2000000x3, .i32⟩
  | 110 => ⟨S2000000x3x1, .i32⟩
  | 111 => ⟨S1, .i32⟩
  | 112 => ⟨S_, .i32⟩
  | 113 => ⟨S2000000x3x1, .i32⟩
  | 114 => ⟨S2000000x3x1, .i1⟩
  | 115 => ⟨S1x1x1, .i32⟩
  | 116 => ⟨S2000000x3x1, .i32⟩
  | 117 => ⟨S2000000x3x1, .i1⟩
  | 118 => ⟨S2000000x3x1, .i1⟩
  | 119 => ⟨S_, .i1⟩
  | 120 => ⟨S2000000x3, .i1⟩
  | 121 => ⟨S2000000x3, .i1⟩
  | 122 => ⟨S_, .i1⟩
  | 123 => ⟨S2000000x3, .i1⟩
  | 124 => ⟨S2000000x3, .i1⟩
  | 125 => ⟨S2000000x3x1, .i1⟩
  | 126 => ⟨S2000000x3x1, .f32⟩
  | 127 => ⟨S2000000x3x3, .f32⟩
  | _ => ⟨S2000000x16x3, .f32⟩

abbrev hbmTy0_2 (i : Nat) : BufTy := match i % 128 with
  | 0 => ⟨S2000000x3x3, .f32⟩
  | 1 => ⟨S2000000x1x3, .f32⟩
  | 2 => ⟨S2000000x16x3, .f32⟩
  | _ => ⟨S2000000x16x3, .f32⟩

abbrev hbmTy (i : Nat) : BufTy := match i / 128 with
  | 0 => hbmTy0_0 i
  | 1 => hbmTy0_1 i
  | 2 => hbmTy0_2 i
  | _ => ⟨S2000000x16x3, .f32⟩

abbrev bufTy : (tb : Table) → Fin (tcTables nBuf tb) → BufTy
  | .hbm, ⟨i, _⟩ => hbmTy i
  | _, _ => ⟨S2000000x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_v1_0 : Ref sig .tc := ⟨.hbm, 14, rfl⟩
abbrev main_v7 : Ref sig .tc := ⟨.hbm, 15, rfl⟩
abbrev main_v8 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_c_1 : Ref sig .tc := ⟨.hbm, 24, rfl⟩
abbrev main_call2_c_2 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_c_3 : Ref sig .tc := ⟨.hbm, 32, rfl⟩
abbrev main_call2_v11 : Ref sig .tc := ⟨.hbm, 33, rfl⟩
abbrev main_call2_v12 : Ref sig .tc := ⟨.hbm, 34, rfl⟩
abbrev main_call2_v13 : Ref sig .tc := ⟨.hbm, 35, rfl⟩
abbrev main_call2_cst : Ref sig .tc := ⟨.hbm, 36, rfl⟩
abbrev main_call2_v14 : Ref sig .tc := ⟨.hbm, 37, rfl⟩
abbrev main_v9 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_c_4 : Ref sig .tc := ⟨.hbm, 58, rfl⟩
abbrev main_call3_v14 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_cst_1 : Ref sig .tc := ⟨.hbm, 68, rfl⟩
abbrev main_v18 : Ref sig .tc := ⟨.hbm, 69, rfl⟩
abbrev main_v19 : Ref sig .tc := ⟨.hbm, 70, rfl⟩
abbrev main_c_2 : Ref sig .tc := ⟨.hbm, 71, rfl⟩
abbrev main_c_3 : Ref sig .tc := ⟨.hbm, 72, rfl⟩
abbrev main_call4_v0 : Ref sig .tc := ⟨.hbm, 73, rfl⟩
abbrev main_call4_v1 : Ref sig .tc := ⟨.hbm, 74, rfl⟩
abbrev main_v20 : Ref sig .tc := ⟨.hbm, 75, rfl⟩
abbrev main_v21 : Ref sig .tc := ⟨.hbm, 76, rfl⟩
abbrev main_call5_v0 : Ref sig .tc := ⟨.hbm, 77, rfl⟩
abbrev main_call5_v1_0 : Ref sig .tc := ⟨.hbm, 78, rfl⟩
abbrev main_v22 : Ref sig .tc := ⟨.hbm, 79, rfl⟩
abbrev main_v23 : Ref sig .tc := ⟨.hbm, 80, rfl⟩
abbrev main_call6_c : Ref sig .tc := ⟨.hbm, 81, rfl⟩
abbrev main_call6_v0 : Ref sig .tc := ⟨.hbm, 82, rfl⟩
abbrev main_call6_v1 : Ref sig .tc := ⟨.hbm, 83, rfl⟩
abbrev main_call6_c_0 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_c_1 : Ref sig .tc := ⟨.hbm, 88, rfl⟩
abbrev main_call6_c_2 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_3 : Ref sig .tc := ⟨.hbm, 96, rfl⟩
abbrev main_call6_v11 : Ref sig .tc := ⟨.hbm, 97, rfl⟩
abbrev main_call6_v12 : Ref sig .tc := ⟨.hbm, 98, rfl⟩
abbrev main_call6_v13 : Ref sig .tc := ⟨.hbm, 99, rfl⟩
abbrev main_call6_cst : Ref sig .tc := ⟨.hbm, 100, rfl⟩
abbrev main_call6_v14 : Ref sig .tc := ⟨.hbm, 101, rfl⟩
abbrev main_v24 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_c_4 : Ref sig .tc := ⟨.hbm, 122, rfl⟩
abbrev main_call7_v14 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_cst_4 : Ref sig .tc := ⟨.hbm, 132, rfl⟩
abbrev main_v33 : Ref sig .tc := ⟨.hbm, 133, rfl⟩
abbrev main_v34 : Ref sig .tc := ⟨.hbm, 134, rfl⟩
abbrev main_c_5 : Ref sig .tc := ⟨.hbm, 135, rfl⟩
abbrev main_c_6 : Ref sig .tc := ⟨.hbm, 136, rfl⟩
abbrev main_call8_v0 : Ref sig .tc := ⟨.hbm, 137, rfl⟩
abbrev main_call8_v1 : Ref sig .tc := ⟨.hbm, 138, rfl⟩
abbrev main_v35 : Ref sig .tc := ⟨.hbm, 139, rfl⟩
abbrev main_v36 : Ref sig .tc := ⟨.hbm, 140, rfl⟩
abbrev main_call9_v0 : Ref sig .tc := ⟨.hbm, 141, rfl⟩
abbrev main_call9_v1_0 : Ref sig .tc := ⟨.hbm, 142, rfl⟩
abbrev main_v37 : Ref sig .tc := ⟨.hbm, 143, rfl⟩
abbrev main_v38 : Ref sig .tc := ⟨.hbm, 144, rfl⟩
abbrev main_call10_c : Ref sig .tc := ⟨.hbm, 145, rfl⟩
abbrev main_call10_v0 : Ref sig .tc := ⟨.hbm, 146, rfl⟩
abbrev main_call10_v1 : Ref sig .tc := ⟨.hbm, 147, rfl⟩
abbrev main_call10_c_0 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_call10_c_1 : Ref sig .tc := ⟨.hbm, 152, rfl⟩
abbrev main_call10_c_2 : Ref sig .tc := ⟨.hbm, 153, rfl⟩
abbrev main_call10_v5 : Ref sig .tc := ⟨.hbm, 154, rfl⟩
abbrev main_call10_v6 : Ref sig .tc := ⟨.hbm, 155, rfl⟩
abbrev main_call10_v7 : Ref sig .tc := ⟨.hbm, 156, rfl⟩
abbrev main_call10_v8 : Ref sig .tc := ⟨.hbm, 157, rfl⟩
abbrev main_call10_v9 : Ref sig .tc := ⟨.hbm, 158, rfl⟩
abbrev main_call10_v10 : Ref sig .tc := ⟨.hbm, 159, rfl⟩
abbrev main_call10_c_3 : Ref sig .tc := ⟨.hbm, 160, rfl⟩
abbrev main_call10_v11 : Ref sig .tc := ⟨.hbm, 161, rfl⟩
abbrev main_call10_v12 : Ref sig .tc := ⟨.hbm, 162, rfl⟩
abbrev main_call10_v13 : Ref sig .tc := ⟨.hbm, 163, rfl⟩
abbrev main_call10_cst : Ref sig .tc := ⟨.hbm, 164, rfl⟩
abbrev main_call10_v14 : Ref sig .tc := ⟨.hbm, 165, rfl⟩
abbrev main_v39 : Ref sig .tc := ⟨.hbm, 166, rfl⟩
abbrev main_call11_c : Ref sig .tc := ⟨.hbm, 167, rfl⟩
abbrev main_call11_v0 : Ref sig .tc := ⟨.hbm, 168, rfl⟩
abbrev main_call11_v1 : Ref sig .tc := ⟨.hbm, 169, rfl⟩
abbrev main_call11_c_0 : Ref sig .tc := ⟨.hbm, 170, rfl⟩
abbrev main_call11_v2 : Ref sig .tc := ⟨.hbm, 171, rfl⟩
abbrev main_call11_v3 : Ref sig .tc := ⟨.hbm, 172, rfl⟩
abbrev main_call11_v4 : Ref sig .tc := ⟨.hbm, 173, rfl⟩
abbrev main_call11_v5 : Ref sig .tc := ⟨.hbm, 174, rfl⟩
abbrev main_call11_c_1 : Ref sig .tc := ⟨.hbm, 175, rfl⟩
abbrev main_call11_c_2 : Ref sig .tc := ⟨.hbm, 176, rfl⟩
abbrev main_call11_v6 : Ref sig .tc := ⟨.hbm, 177, rfl⟩
abbrev main_call11_v7 : Ref sig .tc := ⟨.hbm, 178, rfl⟩
abbrev main_call11_v8 : Ref sig .tc := ⟨.hbm, 179, rfl⟩
abbrev main_call11_v9 : Ref sig .tc := ⟨.hbm, 180, rfl⟩
abbrev main_call11_v10 : Ref sig .tc := ⟨.hbm, 181, rfl⟩
abbrev main_call11_v11 : Ref sig .tc := ⟨.hbm, 182, rfl⟩
abbrev main_call11_c_3 : Ref sig .tc := ⟨.hbm, 183, rfl⟩
abbrev main_call11_v12 : Ref sig .tc := ⟨.hbm, 184, rfl⟩
abbrev main_call11_v13 : Ref sig .tc := ⟨.hbm, 185, rfl⟩
abbrev main_call11_c_4 : Ref sig .tc := ⟨.hbm, 186, rfl⟩
abbrev main_call11_v14 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_v43 : Ref sig .tc := ⟨.hbm, 191, rfl⟩
abbrev main_v44 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_cst_7 : Ref sig .tc := ⟨.hbm, 196, rfl⟩
abbrev main_v48 : Ref sig .tc := ⟨.hbm, 197, rfl⟩
abbrev main_v49 : Ref sig .tc := ⟨.hbm, 198, rfl⟩
abbrev main_c_8 : Ref sig .tc := ⟨.hbm, 199, rfl⟩
abbrev main_c_9 : Ref sig .tc := ⟨.hbm, 200, rfl⟩
abbrev main_call12_v0 : Ref sig .tc := ⟨.hbm, 201, rfl⟩
abbrev main_call12_v1 : Ref sig .tc := ⟨.hbm, 202, rfl⟩
abbrev main_v50 : Ref sig .tc := ⟨.hbm, 203, rfl⟩
abbrev main_v51 : Ref sig .tc := ⟨.hbm, 204, rfl⟩
abbrev main_call13_v0 : Ref sig .tc := ⟨.hbm, 205, rfl⟩
abbrev main_call13_v1_0 : Ref sig .tc := ⟨.hbm, 206, rfl⟩
abbrev main_v52 : Ref sig .tc := ⟨.hbm, 207, rfl⟩
abbrev main_v53 : Ref sig .tc := ⟨.hbm, 208, rfl⟩
abbrev main_call14_c : Ref sig .tc := ⟨.hbm, 209, rfl⟩
abbrev main_call14_v0 : Ref sig .tc := ⟨.hbm, 210, rfl⟩
abbrev main_call14_v1 : Ref sig .tc := ⟨.hbm, 211, rfl⟩
abbrev main_call14_c_0 : Ref sig .tc := ⟨.hbm, 212, rfl⟩
abbrev main_call14_v2 : Ref sig .tc := ⟨.hbm, 213, rfl⟩
abbrev main_call14_v3 : Ref sig .tc := ⟨.hbm, 214, rfl⟩
abbrev main_call14_v4 : Ref sig .tc := ⟨.hbm, 215, rfl⟩
abbrev main_call14_c_1 : Ref sig .tc := ⟨.hbm, 216, rfl⟩
abbrev main_call14_c_2 : Ref sig .tc := ⟨.hbm, 217, rfl⟩
abbrev main_call14_v5 : Ref sig .tc := ⟨.hbm, 218, rfl⟩
abbrev main_call14_v6 : Ref sig .tc := ⟨.hbm, 219, rfl⟩
abbrev main_call14_v7 : Ref sig .tc := ⟨.hbm, 220, rfl⟩
abbrev main_call14_v8 : Ref sig .tc := ⟨.hbm, 221, rfl⟩
abbrev main_call14_v9 : Ref sig .tc := ⟨.hbm, 222, rfl⟩
abbrev main_call14_v10 : Ref sig .tc := ⟨.hbm, 223, rfl⟩
abbrev main_call14_c_3 : Ref sig .tc := ⟨.hbm, 224, rfl⟩
abbrev main_call14_v11 : Ref sig .tc := ⟨.hbm, 225, rfl⟩
abbrev main_call14_v12 : Ref sig .tc := ⟨.hbm, 226, rfl⟩
abbrev main_call14_v13 : Ref sig .tc := ⟨.hbm, 227, rfl⟩
abbrev main_call14_cst : Ref sig .tc := ⟨.hbm, 228, rfl⟩
abbrev main_call14_v14 : Ref sig .tc := ⟨.hbm, 229, rfl⟩
abbrev main_v54 : Ref sig .tc := ⟨.hbm, 230, rfl⟩
abbrev main_call15_c : Ref sig .tc := ⟨.hbm, 231, rfl⟩
abbrev main_call15_v0 : Ref sig .tc := ⟨.hbm, 232, rfl⟩
abbrev main_call15_v1 : Ref sig .tc := ⟨.hbm, 233, rfl⟩
abbrev main_call15_c_0 : Ref sig .tc := ⟨.hbm, 234, rfl⟩
abbrev main_call15_v2 : Ref sig .tc := ⟨.hbm, 235, rfl⟩
abbrev main_call15_v3 : Ref sig .tc := ⟨.hbm, 236, rfl⟩
abbrev main_call15_v4 : Ref sig .tc := ⟨.hbm, 237, rfl⟩
abbrev main_call15_v5 : Ref sig .tc := ⟨.hbm, 238, rfl⟩
abbrev main_call15_c_1 : Ref sig .tc := ⟨.hbm, 239, rfl⟩
abbrev main_call15_c_2 : Ref sig .tc := ⟨.hbm, 240, rfl⟩
abbrev main_call15_v6 : Ref sig .tc := ⟨.hbm, 241, rfl⟩
abbrev main_call15_v7 : Ref sig .tc := ⟨.hbm, 242, rfl⟩
abbrev main_call15_v8 : Ref sig .tc := ⟨.hbm, 243, rfl⟩
abbrev main_call15_v9 : Ref sig .tc := ⟨.hbm, 244, rfl⟩
abbrev main_call15_v10 : Ref sig .tc := ⟨.hbm, 245, rfl⟩
abbrev main_call15_v11 : Ref sig .tc := ⟨.hbm, 246, rfl⟩
abbrev main_call15_c_3 : Ref sig .tc := ⟨.hbm, 247, rfl⟩
abbrev main_call15_v12 : Ref sig .tc := ⟨.hbm, 248, rfl⟩
abbrev main_call15_v13 : Ref sig .tc := ⟨.hbm, 249, rfl⟩
abbrev main_call15_c_4 : Ref sig .tc := ⟨.hbm, 250, rfl⟩
abbrev main_call15_v14 : Ref sig .tc := ⟨.hbm, 251, rfl⟩
abbrev main_v55 : Ref sig .tc := ⟨.hbm, 252, rfl⟩
abbrev main_v56 : Ref sig .tc := ⟨.hbm, 253, rfl⟩
abbrev main_v57 : Ref sig .tc := ⟨.hbm, 254, rfl⟩
abbrev main_v58 : Ref sig .tc := ⟨.hbm, 255, rfl⟩
abbrev main_v59 : Ref sig .tc := ⟨.hbm, 256, rfl⟩
abbrev main_v60 : Ref sig .tc := ⟨.hbm, 257, rfl⟩
abbrev main_v61 : Ref sig .tc := ⟨.hbm, 258, rfl⟩

abbrev nD : Nat := 1
abbrev τ : Topo := Topo.v7x

variable {F : FTy → Type} [FloatOps F]

class Facts₀ : Prop where
  slices_S2000000x16x3_S2000000x6x3_0_0_0 : S2000000x16x3.Slices ![0, 0, 0] S2000000x6x3
  slices_S2000000x6x3_S2000000x6x1_0_0_0 : S2000000x6x3.Slices ![0, 0, 0] S2000000x6x1
  shapeCasts_S2000000x6x1_S2000000x6 : S2000000x6x1.ShapeCasts S2000000x6
  bcast_S_S2000000x6 : S_.BroadcastsInDim S2000000x6 (![] : Fin 0 → Fin S2000000x6.rank)
  bcast_S2000000x6_S2000000x6x1_0_1 : S2000000x6.BroadcastsInDim S2000000x6x1 (![0, 1] : Fin 2 → Fin S2000000x6x1.rank)
  bcast_S_S2000000x6x1 : S_.BroadcastsInDim S2000000x6x1 (![] : Fin 0 → Fin S2000000x6x1.rank)
  bcast_S1_S1x1x1_2 : S1.BroadcastsInDim S1x1x1 (![2] : Fin 1 → Fin S1x1x1.rank)
  bcast_S1x1x1_S2000000x6x1_0_1_2 : S1x1x1.BroadcastsInDim S2000000x6x1 (![0, 1, 2] : Fin 3 → Fin S2000000x6x1.rank)
  reducesTo_S2000000x6x1_S2000000x6_d2 : S2000000x6x1.ReducesTo [2] S2000000x6
  h_S_ : 0 < S_.numel
  bcast_S2000000x6_S2000000x6x3_0_1 : S2000000x6.BroadcastsInDim S2000000x6x3 (![0, 1] : Fin 2 → Fin S2000000x6x3.rank)
  bcast_S_S2000000x6x3 : S_.BroadcastsInDim S2000000x6x3 (![] : Fin 0 → Fin S2000000x6x3.rank)
  shapeCasts_S2000000x6_S2000000x6x1 : S2000000x6.ShapeCasts S2000000x6x1
  bcast_S2000000x6x1_S2000000x6x3_0_1_2 : S2000000x6x1.BroadcastsInDim S2000000x6x3 (![0, 1, 2] : Fin 3 → Fin S2000000x6x3.rank)
  slices_S2000000x16x3_S2000000x3x3_0_6_0 : S2000000x16x3.Slices ![0, 6, 0] S2000000x3x3
  slices_S2000000x3x3_S2000000x3x1_0_0_0 : S2000000x3x3.Slices ![0, 0, 0] S2000000x3x1
  shapeCasts_S2000000x3x1_S2000000x3 : S2000000x3x1.ShapeCasts S2000000x3
  bcast_S_S2000000x3 : S_.BroadcastsInDim S2000000x3 (![] : Fin 0 → Fin S2000000x3.rank)
  bcast_S2000000x3_S2000000x3x1_0_1 : S2000000x3.BroadcastsInDim S2000000x3x1 (![0, 1] : Fin 2 → Fin S2000000x3x1.rank)
  bcast_S_S2000000x3x1 : S_.BroadcastsInDim S2000000x3x1 (![] : Fin 0 → Fin S2000000x3x1.rank)
  bcast_S1x1x1_S2000000x3x1_0_1_2 : S1x1x1.BroadcastsInDim S2000000x3x1 (![0, 1, 2] : Fin 3 → Fin S2000000x3x1.rank)
  reducesTo_S2000000x3x1_S2000000x3_d2 : S2000000x3x1.ReducesTo [2] S2000000x3
  bcast_S2000000x3_S2000000x3x3_0_1 : S2000000x3.BroadcastsInDim S2000000x3x3 (![0, 1] : Fin 2 → Fin S2000000x3x3.rank)
  bcast_S_S2000000x3x3 : S_.BroadcastsInDim S2000000x3x3 (![] : Fin 0 → Fin S2000000x3x3.rank)
  shapeCasts_S2000000x3_S2000000x3x1 : S2000000x3.ShapeCasts S2000000x3x1
  bcast_S2000000x3x1_S2000000x3x3_0_1_2 : S2000000x3x1.BroadcastsInDim S2000000x3x3 (![0, 1, 2] : Fin 3 → Fin S2000000x3x3.rank)
  slices_S2000000x16x3_S2000000x3x3_0_9_0 : S2000000x16x3.Slices ![0, 9, 0] S2000000x3x3
  slices_S2000000x16x3_S2000000x3x3_0_12_0 : S2000000x16x3.Slices ![0, 12, 0] S2000000x3x3
  slices_S2000000x16x3_S2000000x1x3_0_15_0 : S2000000x16x3.Slices ![0, 15, 0] S2000000x1x3
  concatenates_S2000000x6x3_S2000000x3x3_S2000000x3x3_S2000000x3x3_S2000000x1x3_S2000000x16x3_d1 : Shape.Concatenates [S2000000x6x3, S2000000x3x3, S2000000x3x3, S2000000x3x3, S2000000x1x3] S2000000x16x3 1
  gather_S2000000x6x3_S2000000x6x1_S2000000x6x3_2_1_0_0_1_2_113_wf : GatherDims.WF S2000000x6x3 S2000000x6x1 S2000000x6x3 [2] [1] [0] [1] [0] 2 ![1, 1, 3]
  gather_S2000000x6_S2000000x6x1_S2000000x6_n_1_0_0_1_2_11_wf : GatherDims.WF S2000000x6 S2000000x6x1 S2000000x6 [] [1] [0] [1] [0] 2 ![1, 1]
  gather_S2000000x3x3_S2000000x3x1_S2000000x3x3_2_1_0_0_1_2_113_wf : GatherDims.WF S2000000x3x3 S2000000x3x1 S2000000x3x3 [2] [1] [0] [1] [0] 2 ![1, 1, 3]
  gather_S2000000x3_S2000000x3x1_S2000000x3_n_1_0_0_1_2_11_wf : GatherDims.WF S2000000x3 S2000000x3x1 S2000000x3 [] [1] [0] [1] [0] 2 ![1, 1]

variable [Facts₀]

def comparator_i32_i32_d1 : BitVec 32 × BitVec 32 → BitVec 32 × BitVec 32 → BitVec 1 :=
  fun l r =>
    let v2 := IntOp.cmpi .slt l.1 r.1
    v2
def gather_S2000000x6x3_S2000000x6x1_S2000000x6x3_2_1_0_0_1_2_113 : GatherDims S2000000x6x3 S2000000x6x1 S2000000x6x3 where
  offsetDims := [2]
  collapsedSliceDims := [1]
  operandBatchingDims := [0]
  startIndicesBatchingDims := [0]
  startIndexMap := [1]
  indexVectorDim := 2
  sliceSizes := ![1, 1, 3]
  wf := gather_S2000000x6x3_S2000000x6x1_S2000000x6x3_2_1_0_0_1_2_113_wf
def gather_S2000000x6_S2000000x6x1_S2000000x6_n_1_0_0_1_2_11 : GatherDims S2000000x6 S2000000x6x1 S2000000x6 where
  offsetDims := []
  collapsedSliceDims := [1]
  operandBatchingDims := [0]
  startIndicesBatchingDims := [0]
  startIndexMap := [1]
  indexVectorDim := 2
  sliceSizes := ![1, 1]
  wf := gather_S2000000x6_S2000000x6x1_S2000000x6_n_1_0_0_1_2_11_wf
def gather_S2000000x3x3_S2000000x3x1_S2000000x3x3_2_1_0_0_1_2_113 : GatherDims S2000000x3x3 S2000000x3x1 S2000000x3x3 where
  offsetDims := [2]
  collapsedSliceDims := [1]
  operandBatchingDims := [0]
  startIndicesBatchingDims := [0]
  startIndexMap := [1]
  indexVectorDim := 2
  sliceSizes := ![1, 1, 3]
  wf := gather_S2000000x3x3_S2000000x3x1_S2000000x3x3_2_1_0_0_1_2_113_wf
def gather_S2000000x3_S2000000x3x1_S2000000x3_n_1_0_0_1_2_11 : GatherDims S2000000x3 S2000000x3x1 S2000000x3 where
  offsetDims := []
  collapsedSliceDims := [1]
  operandBatchingDims := [0]
  startIndicesBatchingDims := [0]
  startIndexMap := [1]
  indexVectorDim := 2
  sliceSizes := ![1, 1]
  wf := gather_S2000000x3_S2000000x3x1_S2000000x3_n_1_0_0_1_2_11_wf

class Facts : Prop extends Facts₀ where

variable [Facts]
-- ==== Proof.LibNary5.lean ====
/-
  A host operation over a LITERAL family of five references (a concatenation of five operands): its result with each
  operand's contents at its own reference (under the binder of the general form the reference `![x, a, b, c, e] k` is no
  literal, and nothing rewrites what it holds), and the congruence of a five-piece concatenation in its pieces, which
  turns one equation between concatenations into five equations between pieces. Generic in the topology, the signature,
  the value family, the shapes and the element type.
-/
import Idealize.ShloMosaic.Lib.StableHlo.Run

noncomputable section

namespace Cert.Lib.Nary5

open Idealize.ShloMosaic Idealize.ShloMosaic.StableHlo

variable {τ : Topo} {sig : RefSig} {Val : EltTy → Type}
variable {x a b c e y : Ref sig .tc}

/-- The result of an operation over the five literal references `x a b c e`, read at its own result reference: its
    function applied to the five contents, each at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the result reference un-indexed, the form a simplifier pass can use. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- A concatenation of five pieces along an axis is determined piece by piece: equal pieces give equal concatenations.
    It splits a claim about a five-piece concatenation into one claim per piece. -/
theorem concat5_congr {α : Type} {t s1 s2 s3 s4 s5 : Shape} (a : Fin t.rank)
    (x1 y1 : s1.Idx → α) (x2 y2 : s2.Idx → α) (x3 y3 : s3.Idx → α) (x4 y4 : s4.Idx → α) (x5 y5 : s5.Idx → α)
    (h : Shape.Concatenates [s1, s2, s3, s4, s5] t a)
    (e1 : x1 = y1) (e2 : x2 = y2) (e3 : x3 = y3) (e4 : x4 = y4) (e5 : x5 = y5) :
    concatenate t a [⟨s1, x1⟩, ⟨s2, x2⟩, ⟨s3, x3⟩, ⟨s4, x4⟩, ⟨s5, x5⟩] h
      = concatenate t a [⟨s1, y1⟩, ⟨s2, y2⟩, ⟨s3, y3⟩, ⟨s4, y4⟩, ⟨s5, y5⟩] h := by
  subst e1 e2 e3 e4 e5; rfl

end Cert.Lib.Nary5

end
-- ==== Proof.LibCastId.lean ====
/-
  Moving a value along an equation between two types that are definitionally one and the same type changes nothing.
  Here: a simplification procedure that drops such a transport wherever it meets one, and the simplifier pass that reads a
  straight line of host operations back as one composed term with those transports dropped. A typed reference to a
  literal buffer carries the equation "the buffer's type is the value's type", which holds by computation, so every
  operation written over typed references wraps its function in two such transports; dropping them leaves the function
  itself, applied to what its operands hold.
-/
import Idealize.ShloMosaic.Lib.StableHlo.Run

namespace Cert.Lib.CastId

open Lean Meta Simp in
/-- `cast h a` with `h : α = β` is `a` when `α` and `β` are definitionally equal: then `h` proves `α = α`. -/
simproc castOfDefEq (cast _ _) := fun e => do
  let_expr cast α β h a := e | return .continue
  unless (← withTransparency .default <| isDefEq α β) do return .continue
  let us := e.getAppFn.constLevels!
  return .visit { expr := a, proof? := some (mkApp3 (mkConst ``cast_eq us) α h a) }

open Idealize.ShloMosaic Idealize.ShloMosaic.StableHlo in
/-- The contents of one buffer after a literal line of host operations, as the operations' composed term: each
    operation's result at its own buffer is its function of what its operands hold, at any other buffer what was there;
    the transports a typed reference adds are dropped. -/
macro "after_results_plain" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, castOfDefEq]))

end Cert.Lib.CastId
-- ==== Proof.Spec.lean ====
/-
  What the program computes, index by index.

  An event is a 16 × 3 array of objects × features. Objects 0–5, 6–8, 9–11 and 12–14 form four groups; an object of a
  group is VALID when its first feature is positive. The result lists, group by group, the group's valid objects first
  and in their order, and fills the group's remaining slots with zeros; object 15 is kept as it is.
-/
import Idealize.ShloMosaic.PureOps.Ideal
import Idealize.ShloMosaic.Lib.ValueIdx

noncomputable section

namespace Cert.Reorder

open Idealize.ShloMosaic Idealize.ShloMosaic.ValueIdx

/-- The value at the `j`-th valid position, positions taken in order; zero when fewer than `j + 1` positions are valid. -/
def compact {k : ℕ} (valid : Fin k → Bool) (val : Fin k → EReal) (j : ℕ) : EReal :=
  match ((List.finRange k).filter valid)[j]? with
  | some i => val i
  | none => 0

/-- The float zero both programs compare against and start their sums from. -/
abbrev fzero : EReal := Ideal.ofBits .f32 0x00000000#32

/-- An object's validity bit: its first feature `a` is positive. -/
def vbit (a : EReal) : BitVec 1 := Ideal.cmp .ogt a fzero

/-- The weight the kernel gives an object for slot `J`: one when the object is valid (`b`) and the number `run` of valid
    objects up to and including it, less one, is `J`; else zero. -/
def selw (b : BitVec 1) (run J : BitVec 32) : EReal :=
  (((BitVec.setWidth 32 (IntOp.andi b (IntOp.cmpi .eq (IntOp.subi run 1#32) J))).toInt : ℝ) : EReal)

/-- Slot `J` of a group of three as the kernel sums it: each object's value weighted by `selw` at its running count. -/
def kacc3 (J : BitVec 32) (b0 b1 b2 : BitVec 1) (v0 v1 v2 : EReal) : EReal :=
  let r0 : BitVec 32 := BitVec.setWidth 32 b0
  let r1 : BitVec 32 := IntOp.addi r0 (BitVec.setWidth 32 b1)
  let r2 : BitVec 32 := IntOp.addi r1 (BitVec.setWidth 32 b2)
  fzero + selw b0 r0 J * v0 + selw b1 r1 J * v1 + selw b2 r2 J * v2

/-- Slot `J` of a group of six as the kernel sums it. -/
def kacc6 (J : BitVec 32) (b0 b1 b2 b3 b4 b5 : BitVec 1) (v0 v1 v2 v3 v4 v5 : EReal) : EReal :=
  let r0 : BitVec 32 := BitVec.setWidth 32 b0
  let r1 : BitVec 32 := IntOp.addi r0 (BitVec.setWidth 32 b1)
  let r2 : BitVec 32 := IntOp.addi r1 (BitVec.setWidth 32 b2)
  let r3 : BitVec 32 := IntOp.addi r2 (BitVec.setWidth 32 b3)
  let r4 : BitVec 32 := IntOp.addi r3 (BitVec.setWidth 32 b4)
  let r5 : BitVec 32 := IntOp.addi r4 (BitVec.setWidth 32 b5)
  fzero + selw b0 r0 J * v0 + selw b1 r1 J * v1 + selw b2 r2 J * v2 + selw b3 r3 J * v3 + selw b4 r4 J * v4
    + selw b5 r5 J * v5

/-- The key the reference sorts an object by: 0 when valid, 1 when not. -/
def skey (b : BitVec 1) : BitVec 32 := Scalar.select b 0#32 1#32

/-- Position `i` sorts strictly before position `i'`: its key is the smaller. -/
def sbefore {k : ℕ} (b : Fin k → BitVec 1) (i i' : Fin k) : Bool :=
  IntOp.cmpi .slt (skey (b i)) (skey (b i')) == 1#1

/-- Slot `j` of a group as the reference computes it: the object the stable sort by key puts at `j`, times its validity
    read as a number. -/
def racc {k : ℕ} (b : Fin k → BitVec 1) (v : Fin k → EReal) (j : Fin k) : EReal :=
  v (sortedFrom (sbefore b) j) * ((((b (sortedFrom (sbefore b) j)).toNat : ℝ)) : EReal)

/-- One event's result from its 16 × 3 entries `r`: per group the valid objects first, then zeros; object 15 kept. -/
def rowG (r : Fin 16 → Fin 3 → EReal) (o : Fin 16) (f : Fin 3) : EReal :=
  if o.val < 6 then
    compact (fun i : Fin 6 => ![vbit (r 0 0), vbit (r 1 0), vbit (r 2 0), vbit (r 3 0), vbit (r 4 0), vbit (r 5 0)] i == 1#1)
      ![r 0 f, r 1 f, r 2 f, r 3 f, r 4 f, r 5 f] o.val
  else if o.val < 9 then
    compact (fun i : Fin 3 => ![vbit (r 6 0), vbit (r 7 0), vbit (r 8 0)] i == 1#1) ![r 6 f, r 7 f, r 8 f] (o.val - 6)
  else if o.val < 12 then
    compact (fun i : Fin 3 => ![vbit (r 9 0), vbit (r 10 0), vbit (r 11 0)] i == 1#1) ![r 9 f, r 10 f, r 11 f] (o.val - 9)
  else if o.val < 15 then
    compact (fun i : Fin 3 => ![vbit (r 12 0), vbit (r 13 0), vbit (r 14 0)] i == 1#1) ![r 12 f, r 13 f, r 14 f]
      (o.val - 12)
  else r 15 f

/-- The same event as the kernel sums it: each slot of a group the weighted sum `kacc6` / `kacc3` over the group's objects. -/
def rowK (r : Fin 16 → Fin 3 → EReal) (o : Fin 16) (f : Fin 3) : EReal :=
  if o.val < 6 then
    kacc6 (BitVec.ofNat 32 o.val) (vbit (r 0 0)) (vbit (r 1 0)) (vbit (r 2 0)) (vbit (r 3 0)) (vbit (r 4 0)) (vbit (r 5 0))
      (r 0 f) (r 1 f) (r 2 f) (r 3 f) (r 4 f) (r 5 f)
  else if o.val < 9 then
    kacc3 (BitVec.ofNat 32 (o.val - 6)) (vbit (r 6 0)) (vbit (r 7 0)) (vbit (r 8 0)) (r 6 f) (r 7 f) (r 8 f)
  else if o.val < 12 then
    kacc3 (BitVec.ofNat 32 (o.val - 9)) (vbit (r 9 0)) (vbit (r 10 0)) (vbit (r 11 0)) (r 9 f) (r 10 f) (r 11 f)
  else if o.val < 15 then
    kacc3 (BitVec.ofNat 32 (o.val - 12)) (vbit (r 12 0)) (vbit (r 13 0)) (vbit (r 14 0)) (r 12 f) (r 13 f) (r 14 f)
  else r 15 f

/-- The same event as the reference computes it: each slot of a group the sorted object times its validity, `racc`. -/
def rowR (r : Fin 16 → Fin 3 → EReal) (o : Fin 16) (f : Fin 3) : EReal :=
  if h : o.val < 6 then
    racc ![vbit (r 0 0), vbit (r 1 0), vbit (r 2 0), vbit (r 3 0), vbit (r 4 0), vbit (r 5 0)]
      ![r 0 f, r 1 f, r 2 f, r 3 f, r 4 f, r 5 f] ⟨o.val, h⟩
  else if h : o.val < 9 then
    racc ![vbit (r 6 0), vbit (r 7 0), vbit (r 8 0)] ![r 6 f, r 7 f, r 8 f] ⟨o.val - 6, by omega⟩
  else if h : o.val < 12 then
    racc ![vbit (r 9 0), vbit (r 10 0), vbit (r 11 0)] ![r 9 f, r 10 f, r 11 f] ⟨o.val - 9, by omega⟩
  else if h : o.val < 15 then
    racc ![vbit (r 12 0), vbit (r 13 0), vbit (r 14 0)] ![r 12 f, r 13 f, r 14 f] ⟨o.val - 12, by omega⟩
  else r 15 f

end Cert.Reorder

end
-- ==== Proof.KernelBlock.lean ====
/-
  The kernel's output block read at an entry: row p of the block is one event, and entry (p, 3 o + f) of what the body
  stores is slot o, feature f of that event as the kernel sums it (`rowK`) over the event's 48 entries of the input block.

  The stored value is sixteen [5000, 3] vectors laid side by side along the columns, so its column 3 o + f is vector o at
  column f. Vector o is a tree of row-wise operations over the sixteen three-column loads of the input block: a load at
  column c read at (p, f) is the block's entry (p, c + f); column 0 of a vector, kept as a one-column vector, reads that
  vector at (p, 0); a one-column vector broadcast to three columns reads its row p at every column; a cast to the same
  shape changes nothing. Every other operation acts entry by entry, so once these four are read as functions of the index
  the tree read at (p, f) is, term for term, the weighted sum `kacc6` / `kacc3` of the event's entries.
-/
import proofs.«105476_j10806137717520_1_alg».proof.Proof.Gen.KernelIdeal.Frame
import proofs.«105476_j10806137717520_1_alg».proof.Proof.Spec
import Idealize.ShloMosaic.Lib.ValueIdx
import Idealize.ShloMosaic.Lib.Pipeline.Value

noncomputable section

namespace Cert.Reorder

open Idealize.ShloMosaic Idealize.ShloMosaic.ValueIdx Cert.KernelIdeal

namespace Block

open Cert.KernelIdeal.Gen

/-! ## The layout operations read at an index -/

/-- A column of the 48-wide block that a three-column rectangle at column `c` reaches lies inside the block. -/
theorem col_lt {c : Nat} (inb : ∀ a, (![0, c] : Fin 2 → Nat) a + S5000x3.size a ≤ S5000x48.size a) (f : Fin 3) :
    c + f.val < 48 := by
  have h : c + 3 ≤ 48 := inb 1
  have := f.isLt
  omega

/-- A load through the three-column rectangle at column `c`, read at (p, f), is the block's entry (p, c + f). -/
theorem ld_col (x0 : Vec Ideal S5000x48 .f32) (c : Nat)
    (inb : ∀ a, (![0, c] : Fin 2 → Nat) a + S5000x3.size a ≤ S5000x48.size a) (p : Fin 5000) (f : Fin 3) :
    View.ld x0 (Rect.unit (s := S5000x48) ![0, c] S5000x3.size inb) (ix2 p f)
      = x0 (ix2 p (⟨c + f.val, col_lt inb f⟩ : Fin 48)) := by
  show x0 _ = x0 _
  congr 1
  funext a
  match a with
  | ⟨0, _⟩ => exact Fin.ext (by show 0 + 1 * p.val = p.val; omega)
  | ⟨1, _⟩ => exact Fin.ext (by show c + 1 * f.val = c + f.val; omega)

variable {α : Type}

/-- Column 0 of a three-column vector, as a one-column vector, read at row p. -/
theorem slice_col0 (v : S5000x3.Idx → α) (h : S5000x3.Slices ![0, 0] S5000x1) (p : Fin 5000) (z : Fin 1) :
    extractStridedSlice S5000x1 ![0, 0] v h (ix2 p z) = v (ix2 p (0 : Fin 3)) := by
  refine extractStridedSlice_apply ![0, 0] v h (ix2 p z) (ix2 p (0 : Fin 3)) fun a => ?_
  have hz : z.val = 0 := by omega
  match a with
  | ⟨0, _⟩ => show p.val = 0 + p.val; omega
  | ⟨1, _⟩ => show 0 = 0 + z.val; omega

/-- A one-column vector broadcast to three columns reads, at (p, f), its entry of row p. -/
theorem bcast_col (w : S5000x1.Idx → α) (h : S5000x1.Broadcasts S5000x3) (p : Fin 5000) (f : Fin 3) :
    broadcastTo S5000x3 w h (ix2 p f) = w (ix2 p (0 : Fin 1)) := by
  refine broadcastTo_apply w h (ix2 p f) (ix2 p (0 : Fin 1)) fun a => ?_
  match a with
  | ⟨0, _⟩ => rfl
  | ⟨1, _⟩ => rfl

/-- The three-column load at column `c` as a function of the index. -/
theorem ld_col_fn (x0 : Vec Ideal S5000x48 .f32) (c : Nat)
    (inb : ∀ a, (![0, c] : Fin 2 → Nat) a + S5000x3.size a ≤ S5000x48.size a) :
    View.ld x0 (Rect.unit (s := S5000x48) ![0, c] S5000x3.size inb)
      = fun j : S5000x3.Idx => x0 (ix2 (j 0 : Fin 5000) (⟨c + (j 1 : Fin 3).val, col_lt inb (j 1)⟩ : Fin 48)) := by
  funext j
  obtain ⟨p, f, rfl⟩ : ∃ (p : Fin 5000) (f : Fin 3), j = ix2 p f := ⟨j 0, j 1, eq_ix2 j⟩
  exact ld_col x0 c inb p f

/-- Column 0 of a three-column vector as a function of the index. -/
theorem slice_col0_fn (v : S5000x3.Idx → α) (h : S5000x3.Slices ![0, 0] S5000x1) :
    extractStridedSlice S5000x1 ![0, 0] v h = fun j : S5000x1.Idx => v (ix2 (j 0 : Fin 5000) (0 : Fin 3)) := by
  funext j
  obtain ⟨p, z, rfl⟩ : ∃ (p : Fin 5000) (z : Fin 1), j = ix2 p z := ⟨j 0, j 1, eq_ix2 j⟩
  exact slice_col0 v h p z

/-- A one-column vector broadcast to three columns as a function of the index. -/
theorem bcast_col_fn (w : S5000x1.Idx → α) (h : S5000x1.Broadcasts S5000x3) :
    broadcastTo S5000x3 w h = fun j : S5000x3.Idx => w (ix2 (j 0 : Fin 5000) (0 : Fin 1)) := by
  funext j
  obtain ⟨p, f, rfl⟩ : ∃ (p : Fin 5000) (f : Fin 3), j = ix2 p f := ⟨j 0, j 1, eq_ix2 j⟩
  exact bcast_col w h p f

/-! ## The sixteen vectors side by side -/

/-- The zero offsets of the rectangle that is the whole block. -/
theorem zero_off : (![0, 0] : Fin 2 → Nat) = fun _ => 0 := funext fun a => by fin_cases a <;> rfl

/-- The stored value, sixteen three-column vectors laid side by side, read at column 3 o + f: vector o at column f
    (the column over 3 names the vector, the column modulo 3 the column inside it). -/
theorem pay2_apply (v0 v1 v2 v3 v4 v5 v6 v7 v8 v9 v10 v11 v12 v13 v14 : FVec Ideal S5000x3 .f32)
    (v15 : Vec Ideal S5000x3 .f32) (p : Fin 5000) (o : Fin 16) (f : Fin 3) :
    k0_pay2 v0 v1 v2 v3 v4 v5 v6 v7 v8 v9 v10 v11 v12 v13 v14 v15 (ix2 p (⟨3 * o.val + f.val, by omega⟩ : Fin 48))
      = (![v0, v1, v2, v3, v4, v5, v6, v7, v8, v9, v10, v11, v12, v13, v14, v15] : Fin 16 → FVec Ideal S5000x3 .f32) o
          (ix2 p f) := by
  unfold k0_pay2
  simp only [shapeCast_self]
  exact concatenate_ofFn_apply (t := S5000x48) (s₁ := S5000x3) 1
    (![v0, v1, v2, v3, v4, v5, v6, v7, v8, v9, v10, v11, v12, v13, v14, v15] : Fin 16 → FVec Ideal S5000x3 .f32) _ rfl 3 rfl
    (ix2 p (⟨3 * o.val + f.val, by omega⟩ : Fin 48)) o (by show (3 * o.val + f.val) / 3 = o.val; omega) (ix2 p f)
    (by show f.val = (3 * o.val + f.val) % 3; omega)
    (fun b hb => match b, hb with
      | ⟨0, _⟩, _ => rfl
      | ⟨1, _⟩, hb => absurd rfl hb)

/-! ## The sixteen slots

Row p of the block as 16 objects of 3 features, and each of the sixteen vectors read at (p, f): with the loads, the column
slices, the column broadcasts and the casts read as functions of the index, what is left is entry-by-entry arithmetic, and
it is `rowK` of the row at that slot by unfolding both sides. -/

/-- Row p of the block as 16 objects of 3 features. -/
abbrev rowOf (x0 : Vec Ideal S5000x48 .f32) (p : Fin 5000) : Fin 16 → Fin 3 → EReal :=
  fun o' f' => x0 (ix2 p (⟨3 * o'.val + f'.val, by omega⟩ : Fin 48))

/-- Slot 0 of the group of six: the sum over objects 0–5 of [valid and running count − 1 = 0] × object. -/
theorem slot0 (x0 : Vec Ideal S5000x48 .f32) (p : Fin 5000) (f : Fin 3) :
    k0_pay23 (k0_pay19 (k0_pay12 (View.ld x0 r0_0) (View.ld x0 r0_1) (View.ld x0 r0_2)) (View.ld x0 r0_3) (View.ld x0 r0_4))
        (k0_pay20 (k0_pay9 (View.ld x0 r0_0) (View.ld x0 r0_1)) (k0_pay10 (View.ld x0 r0_2)) (k0_pay11 (View.ld x0 r0_2))
          (k0_pay12 (View.ld x0 r0_0) (View.ld x0 r0_1) (View.ld x0 r0_2))
          (k0_pay13 (View.ld x0 r0_0) (View.ld x0 r0_1) (View.ld x0 r0_2)) 0#32 (View.ld x0 r0_3) (View.ld x0 r0_4))
        (k0_pay21 (View.ld x0 r0_5)) (k0_pay22 (View.ld x0 r0_5)) (ix2 p f)
      = rowK (rowOf x0 p) 0 f := by
  simp only [k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, shapeCast_self, slice_col0_fn,
    bcast_col_fn, ld_col_fn]
  rfl

/-- Slot 1 of the group of six. -/
theorem slot1 (x0 : Vec Ideal S5000x48 .f32) (p : Fin 5000) (f : Fin 3) :
    k0_pay42
        (k0_pay37 (k0_pay29 (View.ld x0 r0_0) (View.ld x0 r0_1)) (k0_pay30 (View.ld x0 r0_0) (View.ld x0 r0_1))
          (View.ld x0 r0_2) (View.ld x0 r0_3))
        (k0_pay38 (View.ld x0 r0_4))
        (k0_pay40 (k0_pay29 (View.ld x0 r0_0) (View.ld x0 r0_1)) (View.ld x0 r0_2) (View.ld x0 r0_3) (View.ld x0 r0_4))
        (k0_pay41 (k0_pay29 (View.ld x0 r0_0) (View.ld x0 r0_1)) (View.ld x0 r0_2) (View.ld x0 r0_3) (View.ld x0 r0_4))
        (View.ld x0 r0_5) (ix2 p f)
      = rowK (rowOf x0 p) 1 f := by
  simp only [k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, shapeCast_self, slice_col0_fn,
    bcast_col_fn, ld_col_fn]
  rfl

/-- Slot 2 of the group of six. -/
theorem slot2 (x0 : Vec Ideal S5000x48 .f32) (p : Fin 5000) (f : Fin 3) :
    k0_pay58 (k0_pay55 (k0_pay49 (View.ld x0 r0_0) (View.ld x0 r0_1)) (View.ld x0 r0_2) (View.ld x0 r0_3))
        (k0_pay56 (k0_pay46 (View.ld x0 r0_0)) (k0_pay47 (View.ld x0 r0_1)) (k0_pay48 (View.ld x0 r0_1))
          (k0_pay49 (View.ld x0 r0_0) (View.ld x0 r0_1)) (View.ld x0 r0_2) (View.ld x0 r0_3))
        (k0_pay57 (View.ld x0 r0_4)) (View.ld x0 r0_5) (ix2 p f)
      = rowK (rowOf x0 p) 2 f := by
  simp only [k0_pay43, k0_pay44, k0_pay45, k0_pay46, k0_pay47, k0_pay48, k0_pay49, k0_pay50, k0_pay51, k0_pay52, k0_pay53,
    k0_pay54, k0_pay55, k0_pay56, k0_pay57, k0_pay58, shapeCast_self, slice_col0_fn, bcast_col_fn, ld_col_fn]
  rfl

/-- Slot 3 of the group of six. -/
theorem slot3 (x0 : Vec Ideal S5000x48 .f32) (p : Fin 5000) (f : Fin 3) :
    k0_pay75
        (k0_pay70 (k0_pay59 (F := Ideal)) (k0_pay60 (View.ld x0 r0_0)) (k0_pay62 (View.ld x0 r0_0)) (k0_pay63 (View.ld x0 r0_0))
          (View.ld x0 r0_1) (View.ld x0 r0_2))
        (k0_pay71 (View.ld x0 r0_3)) (k0_pay72 (View.ld x0 r0_3))
        (k0_pay73 (k0_pay62 (View.ld x0 r0_0)) (View.ld x0 r0_1) (View.ld x0 r0_2) (View.ld x0 r0_3))
        (k0_pay74 (k0_pay62 (View.ld x0 r0_0)) (View.ld x0 r0_1) (View.ld x0 r0_2) (View.ld x0 r0_3))
        (View.ld x0 r0_4) (View.ld x0 r0_5) (ix2 p f)
      = rowK (rowOf x0 p) 3 f := by
  simp only [k0_pay59, k0_pay60, k0_pay61, k0_pay62, k0_pay63, k0_pay64, k0_pay65, k0_pay66, k0_pay67, k0_pay68, k0_pay69,
    k0_pay70, k0_pay71, k0_pay72, k0_pay73, k0_pay74, k0_pay75, shapeCast_self, slice_col0_fn, bcast_col_fn, ld_col_fn]
  rfl

/-- Slot 4 of the group of six. -/
theorem slot4 (x0 : Vec Ideal S5000x48 .f32) (p : Fin 5000) (f : Fin 3) :
    k0_pay98
        (k0_pay94 (k0_pay86 (k0_pay78 (View.ld x0 r0_0)) (View.ld x0 r0_1) (View.ld x0 r0_2))
          (k0_pay87 (k0_pay76 (F := Ideal)) (k0_pay77 (View.ld x0 r0_0)) (k0_pay78 (View.ld x0 r0_0)) (View.ld x0 r0_1)
            (View.ld x0 r0_2))
          (View.ld x0 r0_3) (View.ld x0 r0_4))
        (k0_pay95 (View.ld x0 r0_5)) (k0_pay96 (View.ld x0 r0_5))
        (k0_pay97 (k0_pay86 (k0_pay78 (View.ld x0 r0_0)) (View.ld x0 r0_1) (View.ld x0 r0_2)) (View.ld x0 r0_3)
          (View.ld x0 r0_4) (View.ld x0 r0_5))
        (ix2 p f)
      = rowK (rowOf x0 p) 4 f := by
  simp only [k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    shapeCast_self, slice_col0_fn, bcast_col_fn, ld_col_fn]
  rfl

/-- Slot 5 of the group of six. -/
theorem slot5 (x0 : Vec Ideal S5000x48 .f32) (p : Fin 5000) (f : Fin 3) :
    k0_pay117
        (k0_pay115 (k0_pay104 (View.ld x0 r0_0) (View.ld x0 r0_1)) (k0_pay108 (View.ld x0 r0_2)) (View.ld x0 r0_3)
          (View.ld x0 r0_4))
        (k0_pay116 (k0_pay104 (View.ld x0 r0_0) (View.ld x0 r0_1)) (k0_pay105 (View.ld x0 r0_0) (View.ld x0 r0_1))
          (k0_pay106 (View.ld x0 r0_2)) (k0_pay107 (View.ld x0 r0_2)) (k0_pay108 (View.ld x0 r0_2)) (View.ld x0 r0_3)
          (View.ld x0 r0_4))
        (View.ld x0 r0_5) (ix2 p f)
      = rowK (rowOf x0 p) 5 f := by
  simp only [k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, shapeCast_self,
    slice_col0_fn, bcast_col_fn, ld_col_fn]
  rfl

/-- Slot 0 of the first group of three (objects 6–8). -/
theorem slot6 (x0 : Vec Ideal S5000x48 .f32) (p : Fin 5000) (f : Fin 3) :
    k0_pay126 (k0_pay121 (View.ld x0 r0_6)) (k0_pay122 (View.ld x0 r0_7)) (k0_pay124 (View.ld x0 r0_6) (View.ld x0 r0_7))
        (k0_pay125 (View.ld x0 r0_6) (View.ld x0 r0_7)) (View.ld x0 r0_8) (ix2 p f)
      = rowK (rowOf x0 p) 6 f := by
  simp only [k0_pay118, k0_pay119, k0_pay120, k0_pay121, k0_pay122, k0_pay123, k0_pay124, k0_pay125, k0_pay126,
    shapeCast_self, slice_col0_fn, bcast_col_fn, ld_col_fn]
  rfl

/-- Slot 1 of the first group of three. -/
theorem slot7 (x0 : Vec Ideal S5000x48 .f32) (p : Fin 5000) (f : Fin 3) :
    k0_pay134 (k0_pay130 (View.ld x0 r0_6)) (k0_pay131 (View.ld x0 r0_7)) (k0_pay132 (View.ld x0 r0_7))
        (k0_pay133 (View.ld x0 r0_6) (View.ld x0 r0_7)) 1#32 (View.ld x0 r0_8) (ix2 p f)
      = rowK (rowOf x0 p) 7 f := by
  simp only [k0_pay127, k0_pay128, k0_pay129, k0_pay130, k0_pay131, k0_pay132, k0_pay133, k0_pay134, shapeCast_self,
    slice_col0_fn, bcast_col_fn, ld_col_fn]
  rfl

/-- Slot 2 of the first group of three. -/
theorem slot8 (x0 : Vec Ideal S5000x48 .f32) (p : Fin 5000) (f : Fin 3) :
    k0_pay140 (k0_pay137 (View.ld x0 r0_6)) (k0_pay138 (View.ld x0 r0_6)) (k0_pay139 (View.ld x0 r0_7)) (View.ld x0 r0_8)
        (ix2 p f)
      = rowK (rowOf x0 p) 8 f := by
  simp only [k0_pay135, k0_pay136, k0_pay137, k0_pay138, k0_pay139, k0_pay140, shapeCast_self, slice_col0_fn, bcast_col_fn,
    ld_col_fn]
  rfl

/-- Slot 0 of the second group of three (objects 9–11). -/
theorem slot9 (x0 : Vec Ideal S5000x48 .f32) (p : Fin 5000) (f : Fin 3) :
    k0_pay146 (k0_pay141 (F := Ideal)) (k0_pay142 (View.ld x0 r0_9)) (k0_pay144 (View.ld x0 r0_9)) (k0_pay145 (View.ld x0 r0_9))
        (View.ld x0 r0_10) (View.ld x0 r0_11) (ix2 p f)
      = rowK (rowOf x0 p) 9 f := by
  simp only [k0_pay141, k0_pay142, k0_pay143, k0_pay144, k0_pay145, k0_pay146, shapeCast_self, slice_col0_fn, bcast_col_fn,
    ld_col_fn]
  rfl

/-- Slot 1 of the second group of three. -/
theorem slot10 (x0 : Vec Ideal S5000x48 .f32) (p : Fin 5000) (f : Fin 3) :
    k0_pay152 (k0_pay147 (F := Ideal)) (k0_pay148 (View.ld x0 r0_9)) (k0_pay149 (View.ld x0 r0_9)) (k0_pay150 (View.ld x0 r0_9))
        k0_pay151 (View.ld x0 r0_10) (View.ld x0 r0_11) (ix2 p f)
      = rowK (rowOf x0 p) 10 f := by
  simp only [k0_pay147, k0_pay148, k0_pay149, k0_pay150, k0_pay151, k0_pay152, shapeCast_self, slice_col0_fn, bcast_col_fn,
    ld_col_fn]
  rfl

/-- Slot 2 of the second group of three. -/
theorem slot11 (x0 : Vec Ideal S5000x48 .f32) (p : Fin 5000) (f : Fin 3) :
    k0_pay162 (k0_pay160 (k0_pay153 (F := Ideal)) (k0_pay154 (View.ld x0 r0_9)) (View.ld x0 r0_10))
        (k0_pay161 (k0_pay154 (View.ld x0 r0_9)) (View.ld x0 r0_10) (View.ld x0 r0_11)) (ix2 p f)
      = rowK (rowOf x0 p) 11 f := by
  simp only [k0_pay153, k0_pay154, k0_pay155, k0_pay156, k0_pay157, k0_pay158, k0_pay159, k0_pay160, k0_pay161, k0_pay162,
    shapeCast_self, slice_col0_fn, bcast_col_fn, ld_col_fn]
  rfl

/-- Slot 0 of the third group of three (objects 12–14). -/
theorem slot12 (x0 : Vec Ideal S5000x48 .f32) (p : Fin 5000) (f : Fin 3) :
    k0_pay173 (k0_pay169 (View.ld x0 r0_12) (View.ld x0 r0_13)) (k0_pay170 (View.ld x0 r0_14)) (k0_pay171 (View.ld x0 r0_14))
        (k0_pay172 (View.ld x0 r0_12) (View.ld x0 r0_13) (View.ld x0 r0_14)) 0#32 (ix2 p f)
      = rowK (rowOf x0 p) 12 f := by
  simp only [k0_pay163, k0_pay164, k0_pay165, k0_pay166, k0_pay167, k0_pay168, k0_pay169, k0_pay170, k0_pay171, k0_pay172,
    k0_pay173, shapeCast_self, slice_col0_fn, bcast_col_fn, ld_col_fn]
  rfl

/-- Slot 1 of the third group of three. -/
theorem slot13 (x0 : Vec Ideal S5000x48 .f32) (p : Fin 5000) (f : Fin 3) :
    k0_pay184 (k0_pay179 (View.ld x0 r0_12) (View.ld x0 r0_13)) (k0_pay180 (View.ld x0 r0_12) (View.ld x0 r0_13))
        (k0_pay181 (View.ld x0 r0_14)) (k0_pay182 (View.ld x0 r0_14)) (k0_pay183 (F := Ideal)) (ix2 p f)
      = rowK (rowOf x0 p) 13 f := by
  simp only [k0_pay174, k0_pay175, k0_pay176, k0_pay177, k0_pay178, k0_pay179, k0_pay180, k0_pay181, k0_pay182, k0_pay183,
    k0_pay184, shapeCast_self, slice_col0_fn, bcast_col_fn, ld_col_fn]
  rfl

/-- Slot 2 of the third group of three. -/
theorem slot14 (x0 : Vec Ideal S5000x48 .f32) (p : Fin 5000) (f : Fin 3) :
    k0_pay1 (k0_pay190 (View.ld x0 r0_12) (View.ld x0 r0_13)) (k0_pay191 (View.ld x0 r0_12) (View.ld x0 r0_13))
        (View.ld x0 r0_14) (ix2 p f)
      = rowK (rowOf x0 p) 14 f := by
  simp only [k0_pay1, k0_pay185, k0_pay186, k0_pay187, k0_pay188, k0_pay189, k0_pay190, k0_pay191, shapeCast_self,
    slice_col0_fn, bcast_col_fn, ld_col_fn]
  rfl

/-- Object 15 is stored as it is loaded: columns 45–47 of the row. -/
theorem slot15 (x0 : Vec Ideal S5000x48 .f32) (p : Fin 5000) (f : Fin 3) :
    (View.ld x0 r0_15 : Vec Ideal S5000x3 .f32) (ix2 p f) = rowK (rowOf x0 p) 15 f :=
  ld_col x0 45 inb_S5000x48_S5000x3_0_45 p f

end Block

open Block in
/-- Entry (p, 3 o + f) of the stored block is `rowK` of row p of the input block at (o, f). -/
theorem block_apply (x0 : Vec Ideal S5000x48 .f32) (p : Fin 5000) (o : Fin 16) (f : Fin 3) :
    Cert.KernelIdeal.Gen.out0_1 (F := Ideal) x0 (ix2 p (⟨3 * o.val + f.val, by omega⟩ : Fin 48))
      = rowK (fun o' f' => x0 (ix2 p (⟨3 * o'.val + f'.val, by omega⟩ : Fin 48))) o f := by
  unfold Cert.KernelIdeal.Gen.out0_1
  rw [View.canon_unit_zero zero_off]
  refine (pay2_apply _ _ _ _ _ _ _ _ _ _ _ _ _ _ _ _ p o f).trans ?_
  fin_cases o
  · exact slot0 x0 p f
  · exact slot1 x0 p f
  · exact slot2 x0 p f
  · exact slot3 x0 p f
  · exact slot4 x0 p f
  · exact slot5 x0 p f
  · exact slot6 x0 p f
  · exact slot7 x0 p f
  · exact slot8 x0 p f
  · exact slot9 x0 p f
  · exact slot10 x0 p f
  · exact slot11 x0 p f
  · exact slot12 x0 p f
  · exact slot13 x0 p f
  · exact slot14 x0 p f
  · exact slot15 x0 p f

end Cert.Reorder

end
-- ==== Proof.SpecArray.lean ====
/-
  The whole-array forms: the result array as a function of the argument array, event by event. `G` is the
  specification (per group the valid objects first, then zeros), `GK` the same array as the kernel sums it and `GR` as
  the reference sorts it; the three are one function.
-/
import proofs.«105476_j10806137717520_1_alg».proof.Proof.Spec

noncomputable section

namespace Cert.Reorder

open Idealize.ShloMosaic Idealize.ShloMosaic.ValueIdx

/-- The shape of the argument and of the result: 2,000,000 events of 16 objects of 3 features. -/
abbrev SX : Shape := ⟨3, ![2000000, 16, 3]⟩

/-- Event `n` of an array as its 16 × 3 entries. -/
def event (x : SX.Idx → EReal) (n : Fin 2000000) : Fin 16 → Fin 3 → EReal := fun o f => x (ix3 n o f)

/-- The specification: every event compacted group by group. -/
def G (x : SX.Idx → EReal) : SX.Idx → EReal := fun i => rowG (event x (i 0)) (i 1) (i 2)

/-- The result as the kernel sums it. -/
def GK (x : SX.Idx → EReal) : SX.Idx → EReal := fun i => rowK (event x (i 0)) (i 1) (i 2)

/-- The result as the reference sorts it. -/
def GR (x : SX.Idx → EReal) : SX.Idx → EReal := fun i => rowR (event x (i 0)) (i 1) (i 2)

end Cert.Reorder

end
-- ==== Proof.KernelArray.lean ====
/-
  The kernel's run read as a value: the input array [2000000, 16, 3] is recast as [2000000, 48] (an event's 48 entries
  in a row), blocks of 5000 rows are worked one per grid point, each block's result being `rowK` of its rows, and the
  [2000000, 48] result is recast as [2000000, 16, 3]. So the result array is `GK` of the argument array.
-/
import proofs.«105476_j10806137717520_1_alg».proof.Proof.Gen.KernelIdeal.Frame
import proofs.«105476_j10806137717520_1_alg».proof.Proof.KernelBlock
import proofs.«105476_j10806137717520_1_alg».proof.Proof.SpecArray
import Idealize.ShloMosaic.Lib.ValueIdx
import Idealize.ShloMosaic.Lib.Pipeline.Value
import Idealize.ShloMosaic.Lib.StableHlo.Run

noncomputable section

namespace Cert.Reorder

open Idealize.ShloMosaic Idealize.ShloMosaic.TcCoe Idealize.ShloMosaic.ValueIdx Idealize.SL.Sem
open Cert.KernelIdeal Cert.KernelIdeal.Gen

/-! ## The flat form: the result as a [2000000, 48] array of the [2000000, 48] input -/

/-- Row `n` of a [2000000, 48] array as an event's 16 × 3 entries: entry (o, f) is column 3 o + f. -/
def rowAt (y : S2000000x48.Idx → EReal) (n : Fin 2000000) : Fin 16 → Fin 3 → EReal :=
  fun o f => y (ix2 n (⟨3 * o.val + f.val, by omega⟩ : Fin 48))

/-- The kernel's result in the flat layout: entry (n, q) is slot q / 3, feature q % 3 of row n as the kernel sums it. -/
def Gflat (y : S2000000x48.Idx → EReal) : S2000000x48.Idx → EReal := fun i =>
  rowK (rowAt y (i 0)) (⟨(i 1).val / 3, by have := idx2_lt1 i; omega⟩ : Fin 16)
    (⟨(i 1).val % 3, Nat.mod_lt _ (by omega)⟩ : Fin 3)

/-- `rowK` at equal events, slots and features. -/
theorem rowK_congr {r r' : Fin 16 → Fin 3 → EReal} {o o' : Fin 16} {f f' : Fin 3} (hr : r = r') (ho : o = o')
    (hf : f = f') : rowK r o f = rowK r' o' f' := by
  subst hr ho hf; rfl

/-! ## One block -/

/-- Entry (p, q) of the stored block is slot q / 3, feature q % 3 of row p of the input block: q = 3 (q / 3) + q % 3. -/
theorem out_apply (x0 : Vec Ideal S5000x48 .f32) (p : Fin 5000) (q : Fin 48) :
    Cert.KernelIdeal.Gen.out0_1 (F := Ideal) x0 (ix2 p q)
      = rowK (fun o f => x0 (ix2 p (⟨3 * o.val + f.val, by omega⟩ : Fin 48)))
          (⟨q.val / 3, by omega⟩ : Fin 16) (⟨q.val % 3, Nat.mod_lt _ (by omega)⟩ : Fin 3) := by
  have hq : q = (⟨3 * (q.val / 3) + q.val % 3, by omega⟩ : Fin 48) := Fin.ext (by show q.val = 3 * (q.val / 3) + q.val % 3; omega)
  refine (congrArg (fun q' : Fin 48 => Cert.KernelIdeal.Gen.out0_1 (F := Ideal) x0 (ix2 p q')) hq).trans ?_
  exact block_apply x0 p ⟨q.val / 3, by omega⟩ ⟨q.val % 3, Nat.mod_lt _ (by omega)⟩

/-- The same at an index `j` of the block, by its coordinates. -/
theorem out_idx (x0 : Vec Ideal S5000x48 .f32) (j : S5000x48.Idx) :
    Cert.KernelIdeal.Gen.out0_1 (F := Ideal) x0 j
      = rowK (fun o f => x0 (ix2 (j 0) (⟨3 * o.val + f.val, by omega⟩ : Fin 48)))
          (⟨(j 1).val / 3, by have := idx2_lt1 j; omega⟩ : Fin 16) (⟨(j 1).val % 3, Nat.mod_lt _ (by omega)⟩ : Fin 3) :=
  (congrArg (Cert.KernelIdeal.Gen.out0_1 (F := Ideal) x0) (eq_ix2 j)).trans (out_apply x0 (j 0) (j 1))

/-- The index maps, decided over the 400 grid points: point t's input block and output block are both block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

section

variable (m : (ℓ : Loc nD τ sig) → Buf (Elt Ideal) ℓ) (ρ : Dev nD → PrngReg)

/-- The input window's block at point `t` is rows 5000 t … 5000 t + 4999 of the [2000000, 48] array. -/
theorem iblk_apply (c : Dev nD) (t : Fin cfg0.N) (x : S5000x48.Idx) (k : S2000000x48.Idx)
    (hk0 : (k 0).val = 5000 * t.val + (x 0).val) (hk1 : (k 1).val = (x 1).val) :
    (iblk m c 0 t : Vec Ideal S5000x48 .f32) x = (V m c main_v0 : S2000000x48.Idx → EReal) k := by
  obtain ⟨e0, e1, -, -⟩ := idx_facts t
  unfold iblk
  rw [View.read_apply]
  show V m c main_v0 _ = V m c main_v0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 48 + 1 * (x 1).val = (k 1).val; rw [e1, hk1]; omega

/-- Where the output window's block at point `t` puts its entry `j`: row 5000 t + j₀, column j₁. -/
theorem oblk_emb (t : Fin cfg0.N) (j : S5000x48.Idx) :
    ((((cfg0.win 1).blk t).view.emb j : S2000000x48.Idx) 0).val = 5000 * t.val + (j 0).val
      ∧ ((((cfg0.win 1).blk t).view.emb j : S2000000x48.Idx) 1).val = (j 1).val := by
  obtain ⟨-, -, e2, e3⟩ := idx_facts t
  constructor
  · show win0_1.index t (0 : Fin 2) * 5000 + 1 * (j 0).val = _; rw [e2]; omega
  · show win0_1.index t (1 : Fin 2) * 48 + 1 * (j 1).val = _; rw [e3]; omega

/-- What point `t` writes back is block `t` of the flat form of the [2000000, 48] array the region finds. -/
theorem flushed_eq (c : Dev nD) (t : Fin cfg0.N) :
    (dats m 0 c).flushed 1 t = ((cfg0.win 1).blk t).view.read (Elt Ideal) (Gflat (V m c main_v0)) := by
  show (cfg0.win 1).cut (grid0.coords t) ((dats m 0 c).after 1 t) = _
  rw [after0_1]
  funext j
  obtain ⟨h0, h1⟩ := oblk_emb t j
  show out0_1 (iblk m c 0 t) j = Gflat (V m c main_v0) (((cfg0.win 1).blk t).view.emb j)
  refine (out_idx (iblk m c 0 t) j).trans ?_
  unfold Gflat
  refine rowK_congr (funext fun o => funext fun f => ?_) (Fin.ext ?_) (Fin.ext ?_)
  · exact iblk_apply m c t _ _ h0 rfl
  · exact congrArg (· / 3) h1.symm
  · exact congrArg (· % 3) h1.symm

/-! ## From blocks to the array -/

/-- An index of the [2000000, 48] array is in point `t`'s output block iff each coordinate is in the block's range. -/
theorem mem_blk (t : Fin cfg0.N) (i : S2000000x48.Idx) :
    i ∈ ((cfg0.win 1).blk t).view.set ↔ ∀ a : Fin 2, win0_1.index t a * S5000x48.size a ≤ (i a).val
      ∧ (i a).val < win0_1.index t a * S5000x48.size a + S5000x48.size a := by
  show i ∈ ((View.whole main_v1).slice (win0_1.rect t)).set ↔ _
  rw [View.set_slice_whole, Rect.mem_set_unit]
  exact Iff.rfl

/-- Every row r of the array is in the block of point r / 5000, which writes back: the 400 blocks of 5000 rows tile
    the 2000000 rows, and a block spans all 48 columns. -/
theorem cover (i : S2000000x48.Idx) :
    ∃ t : Fin cfg0.N, (cfg0.win 1).flush t = true ∧ i ∈ ((cfg0.win 1).blk t).view.set := by
  have hi0 : (i 0).val < 2000000 := idx2_lt0 i
  have hi1 : (i 1).val < 48 := idx2_lt1 i
  have hN : cfg0.N = 400 := N_0
  let t : Fin cfg0.N := ⟨(i 0).val / 5000, by rw [hN]; omega⟩
  obtain ⟨-, -, e2, e3⟩ := idx_facts t
  have ht : t.val = (i 0).val / 5000 := rfl
  refine ⟨t, flush0_1 t, ?_⟩
  rw [mem_blk]
  intro a
  match a with
  | ⟨0, _⟩ =>
    show win0_1.index t (0 : Fin 2) * 5000 ≤ (i 0).val ∧ (i 0).val < win0_1.index t (0 : Fin 2) * 5000 + 5000
    rw [e2, ht]; omega
  | ⟨1, _⟩ =>
    show win0_1.index t (1 : Fin 2) * 48 ≤ (i 1).val ∧ (i 1).val < win0_1.index t (1 : Fin 2) * 48 + 48
    rw [e3]; omega

/-- The [2000000, 48] result array after the region is the flat form of the [2000000, 48] input array. -/
theorem final (c : Dev nD) : (dats m 0 c).arrAt 1 cfg0.N = Gflat (V m c main_v0) :=
  (dats m 0 c).arrAt_eq_of_cover 1 (Gflat (V m c main_v0)) (fun t _ => flushed_eq m c t) cover

/-! ## The recasts around the region -/

/-- The region finds the [2000000, 48] input at the argument array recast: same row-major order. -/
theorem V_main_v0 (c : Dev nD) : (V m c main_v0 : S2000000x48.Idx → EReal)
    = shapeCast S2000000x48 (m ((c : Thread nD τ).loc main_arg0) : S2000000x16x3.Idx → EReal)
        Facts₀.shapeCasts_S2000000x16x3_S2000000x48 := by
  show StableHlo.after hostOps0 (fun b => m (c, b)) (Proc.devRef .tc main_v0) = _
  after_results
  rfl

/-- Entry (n, 3 o + f) of the recast input is entry (n, o, f) of the argument: both sit at row-major position
    48 n + 3 o + f = (16 n + o) 3 + f. So row n of the recast input is event n of the argument. -/
theorem rowAt_V (c : Dev nD) (n : Fin 2000000) :
    rowAt (V m c main_v0) n = event (m ((c : Thread nD τ).loc main_arg0)) n := by
  funext o f
  unfold rowAt event
  rw [V_main_v0]
  refine shapeCast_apply _ _ _ (ix3 n o f) ?_
  rw [Shape.rowMajor_val_three, Shape.rowMajor_val_two]
  show (n.val * 16 + o.val) * 3 + f.val = n.val * 48 + (3 * o.val + f.val)
  omega

/-- The result array is the [2000000, 48] result recast. -/
theorem tail_main_v2 (c : Dev nD) :
    (Pipeline.afterTail₀ cfgs (dats m) 0 (V0 m) [hostOps1] c main_v2 : S2000000x16x3.Idx → EReal)
      = shapeCast S2000000x16x3 ((dats m 0 c).arrAt 1 cfg0.N : S2000000x48.Idx → EReal)
          Facts₀.shapeCasts_S2000000x48_S2000000x16x3 := by
  unfold Pipeline.afterTail₀
  show StableHlo.after hostOps1 _ (Proc.devRef .tc main_v2) = _
  after_results
  rw [Pipeline.withArrays_arr spec0 launch0.win.arr_inj c _ _ 1]
  rfl

/-- The recast of the flat form of the recast argument is `GK` of the argument, entry by entry: entry (n, o, f) sits
    at row-major position (16 n + o) 3 + f = 48 n + (3 o + f), and (3 o + f) / 3 = o, (3 o + f) % 3 = f. -/
theorem recast_Gflat (c : Dev nD) :
    shapeCast S2000000x16x3 (Gflat (V m c main_v0)) Facts₀.shapeCasts_S2000000x48_S2000000x16x3
      = GK (m ((c : Thread nD τ).loc main_arg0)) := by
  funext i
  have h1 : (i 1).val < 16 := (i 1).isLt
  have h2 : (i 2).val < 3 := (i 2).isLt
  refine (shapeCast_apply _ _ i (ix2 (i 0) (⟨3 * (i 1).val + (i 2).val, by omega⟩ : Fin 48)) ?_).trans ?_
  · rw [Shape.rowMajor_val_two, Shape.rowMajor_val_three]
    show (i 0).val * 48 + (3 * (i 1).val + (i 2).val) = ((i 0).val * 16 + (i 1).val) * 3 + (i 2).val
    omega
  · unfold Gflat GK
    refine rowK_congr (rowAt_V m c (i 0)) (Fin.ext ?_) (Fin.ext ?_)
    · show (3 * (i 1).val + (i 2).val) / 3 = (i 1).val; omega
    · show (3 * (i 1).val + (i 2).val) % 3 = (i 2).val; omega

end

/-! ## The run, read -/

/-- Every weakly fair execution of the idealized kernel program ends with the result array at `GK` of the argument
    array and the argument array unchanged. -/
theorem kernel_value (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v2) = GK (m ((c.tc : Thread nD τ).loc main_arg0))
        ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans
          ((tail_main_v2 m c).trans ((congrArg (fun y => shapeCast S2000000x16x3 y
            Facts₀.shapeCasts_S2000000x48_S2000000x16x3) (final m c)).trans (recast_Gflat m c))),
        ((h c).2 main_arg0 (Pipeline.mem_restRefs_of main_arg0 (by decide) (by decide))).trans
          (W_main_arg0 m (dats m) c)⟩)
    (run_main m ρ)

end Cert.Reorder

end
-- ==== Proof.LibTakeAlong.lean ====
/-
  A host `take_along_axis` over the second axis of an [N, k] table, piece by piece and read at an index, generic in the
  sizes: the argsort (a two-operand stable sort along axis 1, read at its second result), the two gathers it feeds
  (rows of an [N, k, C] array and cells of an [N, k] array, batched over the first axis, the start index clamped into
  [0, k − 1]), and the and-reduction over a unit last axis that guards them.
-/
import Idealize.ShloMosaic.PureOps.ShapeOps
import Idealize.ShloMosaic.PureOps.Contract
import Idealize.ShloMosaic.PureOps.Reduce
import Idealize.ShloMosaic.Lib.ValueIdx

noncomputable section

namespace Cert.Lib.TakeAlong

open Idealize.ShloMosaic Idealize.ShloMosaic.ValueIdx

variable {α β : Type}

/-- An axis is not in a one-axis list when its number differs from that axis's. -/
private theorem not_mem_single {m : ℕ} {a b : Fin m} (h : a.val ≠ b.val) : a ∉ [b] :=
  fun hm => h (congrArg Fin.val (List.mem_singleton.mp hm))

/-- The second result of a two-operand stable sort along axis 1 of an [N, k] table, read at (n, j): the second operand
    at the position of row n that the stable sort of that row's pairs puts at j. -/
theorem sort2_snd_apply {N k : ℕ} (cmp : α × β → α × β → BitVec 1)
    (x : (⟨2, ![N, k]⟩ : Shape).Idx → α) (y : (⟨2, ![N, k]⟩ : Shape).Idx → β) (n : Fin N) (j : Fin k) :
    (Host.sort2 ⟨2, ![N, k]⟩ 1 cmp x y).2 (ix2 n j)
      = y (ix2 n (sortedFrom (fun i i' : Fin k => cmp (x (ix2 n i), y (ix2 n i)) (x (ix2 n i'), y (ix2 n i')) == 1#1) j)) := by
  -- the fiber through (n, j) along axis 1 is the row n: position i of it is (n, i)
  have hF : (fun i : Fin k => (ix2 n j : (⟨2, ![N, k]⟩ : Shape).Idx).along ⟨1, Nat.one_lt_two⟩ i)
      = fun i : Fin k => ix2 n i := by
    funext i a
    match a with
    | ⟨0, _⟩ => rfl
    | ⟨1, _⟩ => rfl
  unfold Host.sort2
  rw [dif_pos (show 1 < (⟨2, ![N, k]⟩ : Shape).rank from Nat.one_lt_two)]
  -- both sides are one function of the fiber's parametrisation, and (n, j)'s coordinate on axis 1 is j
  show (fun F : Fin k → (⟨2, ![N, k]⟩ : Shape).Idx =>
      y (F (sortedFrom (fun i i' => cmp (x (F i), y (F i)) (x (F i'), y (F i')) == 1#1) j)))
    (fun i : Fin k => (ix2 n j : (⟨2, ![N, k]⟩ : Shape).Idx).along ⟨1, Nat.one_lt_two⟩ i) = _
  rw [hF]

/-- The dimension numbers of a gather of rows: operand [N, k, C], start indices [N, k, 1], result [N, k, C]; axis 0
    batched, the start index names a position on axis 1, axis 2 is the offset axis. -/
abbrev rowsDims (N k C : ℕ)
    (wf : GatherDims.WF ⟨3, ![N, k, C]⟩ ⟨3, ![N, k, 1]⟩ ⟨3, ![N, k, C]⟩ [2] [1] [0] [1] [0] 2 ![1, 1, C]) :
    GatherDims ⟨3, ![N, k, C]⟩ ⟨3, ![N, k, 1]⟩ ⟨3, ![N, k, C]⟩ where
  offsetDims := [2]
  collapsedSliceDims := [1]
  operandBatchingDims := [0]
  startIndicesBatchingDims := [0]
  startIndexMap := [1]
  indexVectorDim := 2
  sliceSizes := ![1, 1, C]
  wf := wf

/-- The gather of rows read at (n, j, f): the operand at row n, at the start index `idx (n, j, 0)` read signed and
    clamped into [0, k − 1], feature f. -/
theorem gather_rows_apply {N k C w : ℕ} (hk : 0 < k)
    (wf : GatherDims.WF ⟨3, ![N, k, C]⟩ ⟨3, ![N, k, 1]⟩ ⟨3, ![N, k, C]⟩ [2] [1] [0] [1] [0] 2 ![1, 1, C])
    (x : (⟨3, ![N, k, C]⟩ : Shape).Idx → α) (idx : IVec ⟨3, ![N, k, 1]⟩ w) (n : Fin N) (j : Fin k) (f : Fin C) :
    Host.gather (rowsDims N k C wf) x idx (ix3 n j f)
      = x (ix3 n ⟨min (idx (ix3 n j (0 : Fin 1))).toInt.toNat (k - 1), by omega⟩ f) := by
  unfold Host.gather
  congr 1
  funext a
  refine Fin.ext ?_
  show (rowsDims N k C wf).start (ix3 n j f) idx a + (rowsDims N k C wf).batchCoord (ix3 n j f) a
    + (rowsDims N k C wf).offCoord (ix3 n j f) a = _
  match a with
  | ⟨0, h0⟩ =>
    -- the batching axis: no start, no offset; the batch coordinate is the result's coordinate on axis 0
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin (⟨3, ![N, k, C]⟩ : Shape).rank) ∈ (rowsDims N k C wf).operandBatchingDims from
      List.mem_singleton.mpr rfl)]
    rfl
  | ⟨1, h1⟩ =>
    -- the indexed axis, collapsed: the start index read at (n, j, 0), clamped into [0, k − 1]; nothing else
    rw [GatherDims.batchCoord_eq_zero _ _ _ (not_mem_single (by decide : (1 : ℕ) ≠ 0)),
      GatherDims.offCoord_eq_zero _ _ _ (fun h => ((GatherDims.mem_sKept _ _).mp h).1 (List.mem_singleton.mpr rfl))]
    simp only [Nat.add_zero]
    unfold GatherDims.start
    have hm : (⟨1, h1⟩ : Fin (⟨3, ![N, k, C]⟩ : Shape).rank) ∈ (rowsDims N k C wf).startIndexMap :=
      List.mem_singleton.mpr rfl
    rw [dif_pos hm]
    have hsi : (rowsDims N k C wf).siIdx (ix3 n j f) ⟨List.idxOf (⟨1, h1⟩ : Fin (⟨3, ![N, k, C]⟩ : Shape).rank)
          (rowsDims N k C wf).startIndexMap,
        List.idxOf_lt_length_iff.2 hm⟩ = ix3 n j (0 : Fin 1) := by
      funext b; refine Fin.ext ?_
      match b with
      | ⟨0, _⟩ => rfl
      | ⟨1, _⟩ => rfl
      | ⟨2, _⟩ => rfl
    rw [hsi]
    rfl
  | ⟨2, _⟩ =>
    -- the offset axis: no start (the start index map does not name it), no batching; the offset coordinate is f
    rw [GatherDims.batchCoord_eq_zero _ _ _ (not_mem_single (by decide : (2 : ℕ) ≠ 0))]
    unfold GatherDims.start
    rw [dif_neg (not_mem_single (by decide : (2 : ℕ) ≠ 1))]
    simp only [Nat.zero_add, Nat.add_zero]
    unfold GatherDims.offCoord
    rw [dif_pos ((GatherDims.mem_sKept _ _).mpr
      ⟨not_mem_single (by decide : (2 : ℕ) ≠ 1), not_mem_single (by decide : (2 : ℕ) ≠ 0)⟩)]
    rfl

/-- The dimension numbers of a gather of cells: operand [N, k], start indices [N, k, 1], result [N, k]; axis 0 batched,
    the start index names a position on axis 1. -/
abbrev cellsDims (N k : ℕ)
    (wf : GatherDims.WF ⟨2, ![N, k]⟩ ⟨3, ![N, k, 1]⟩ ⟨2, ![N, k]⟩ [] [1] [0] [1] [0] 2 ![1, 1]) :
    GatherDims ⟨2, ![N, k]⟩ ⟨3, ![N, k, 1]⟩ ⟨2, ![N, k]⟩ where
  offsetDims := []
  collapsedSliceDims := [1]
  operandBatchingDims := [0]
  startIndicesBatchingDims := [0]
  startIndexMap := [1]
  indexVectorDim := 2
  sliceSizes := ![1, 1]
  wf := wf

/-- The gather of cells read at (n, j): the operand at row n, at the start index `idx (n, j, 0)` read signed and
    clamped into [0, k − 1]. -/
theorem gather_cells_apply {N k w : ℕ} (hk : 0 < k)
    (wf : GatherDims.WF ⟨2, ![N, k]⟩ ⟨3, ![N, k, 1]⟩ ⟨2, ![N, k]⟩ [] [1] [0] [1] [0] 2 ![1, 1])
    (x : (⟨2, ![N, k]⟩ : Shape).Idx → α) (idx : IVec ⟨3, ![N, k, 1]⟩ w) (n : Fin N) (j : Fin k) :
    Host.gather (cellsDims N k wf) x idx (ix2 n j)
      = x (ix2 n ⟨min (idx (ix3 n j (0 : Fin 1))).toInt.toNat (k - 1), by omega⟩) := by
  unfold Host.gather
  congr 1
  funext a
  refine Fin.ext ?_
  show (cellsDims N k wf).start (ix2 n j) idx a + (cellsDims N k wf).batchCoord (ix2 n j) a
    + (cellsDims N k wf).offCoord (ix2 n j) a = _
  match a with
  | ⟨0, h0⟩ =>
    -- the batching axis: no start, no offset; the batch coordinate is the result's coordinate on axis 0
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin (⟨2, ![N, k]⟩ : Shape).rank) ∈ (cellsDims N k wf).operandBatchingDims from
      List.mem_singleton.mpr rfl)]
    rfl
  | ⟨1, h1⟩ =>
    -- the indexed axis, collapsed: the start index read at (n, j, 0), clamped into [0, k − 1]; nothing else
    rw [GatherDims.batchCoord_eq_zero _ _ _ (not_mem_single (by decide : (1 : ℕ) ≠ 0)),
      GatherDims.offCoord_eq_zero _ _ _ (fun h => ((GatherDims.mem_sKept _ _).mp h).1 (List.mem_singleton.mpr rfl))]
    simp only [Nat.add_zero]
    unfold GatherDims.start
    have hm : (⟨1, h1⟩ : Fin (⟨2, ![N, k]⟩ : Shape).rank) ∈ (cellsDims N k wf).startIndexMap :=
      List.mem_singleton.mpr rfl
    rw [dif_pos hm]
    have hsi : (cellsDims N k wf).siIdx (ix2 n j) ⟨List.idxOf (⟨1, h1⟩ : Fin (⟨2, ![N, k]⟩ : Shape).rank)
          (cellsDims N k wf).startIndexMap,
        List.idxOf_lt_length_iff.2 hm⟩ = ix3 n j (0 : Fin 1) := by
      funext b; refine Fin.ext ?_
      match b with
      | ⟨0, _⟩ => rfl
      | ⟨1, _⟩ => rfl
      | ⟨2, _⟩ => rfl
    rw [hsi]
    rfl

/-- The and-reduction over the unit last axis of an [N, k, 1] array of bits, from an initial bit, read at (n, j): the
    initial bit and the one entry. -/
theorem reduce_and_unit_apply {N k : ℕ} (x : IVec ⟨3, ![N, k, 1]⟩ 1) (init : IVec ⟨0, ![]⟩ 1)
    (h : (⟨3, ![N, k, 1]⟩ : Shape).ReducesTo [2] ⟨2, ![N, k]⟩) (hu : 0 < (⟨0, ![]⟩ : Shape).numel)
    (n : Fin N) (j : Fin k) :
    Host.reduce IntOp.andi x init h hu (ix2 n j) = IntOp.andi (init ix0) (x (ix3 n j (0 : Fin 1))) := by
  rw [Host.reduce_eq_fold]
  -- over a unit last axis exactly one operand index drops to (n, j): (n, j, 0)
  have hset : (Finset.univ.filter fun i => h.drop i = ix2 n j) = {ix3 n j (0 : Fin 1)} := by
    ext i
    simp only [Finset.mem_filter, Finset.mem_univ, true_and, Finset.mem_singleton]
    constructor
    · intro hi
      funext b
      match b with
      | ⟨0, _⟩ => exact Fin.ext (congrArg Fin.val (congrFun hi ⟨0, Nat.zero_lt_two⟩))
      | ⟨1, _⟩ => exact Fin.ext (congrArg Fin.val (congrFun hi ⟨1, Nat.one_lt_two⟩))
      | ⟨2, hb⟩ => exact Fin.ext (Nat.lt_one_iff.mp (i ⟨2, hb⟩).isLt)
    · rintro rfl
      funext b
      match b with
      | ⟨0, _⟩ => exact Fin.ext rfl
      | ⟨1, _⟩ => exact Fin.ext rfl
  -- the fold over that one index, from the initial value's one element; the operation commutes
  rw [hset, Finset.fold_singleton, eq_ix0 (Shape.Idx.first hu)]
  exact Std.Commutative.comm _ _

end Cert.Lib.TakeAlong

end
-- ==== Proof.RefJets.lean ====
/-
  The reference's first group (objects 0–5) read at an entry: the object the stable sort of the event's six 0/1 keys
  puts at slot j, gathered feature by feature, times its gathered validity read as a number — `racc` of the event's six
  validity bits and six values.
-/
import proofs.«105476_j10806137717520_1_alg».proof.Proof.RefRead
import proofs.«105476_j10806137717520_1_alg».proof.Proof.Spec
import proofs.«105476_j10806137717520_1_alg».proof.Proof.LibTakeAlong
import Idealize.ShloMosaic.Lib.ValueIdx
import Idealize.ShloMosaic.Lib.Pipeline.Value
import Mathlib.Tactic.FinCases

noncomputable section

namespace Cert.Reorder

open Idealize.ShloMosaic Idealize.ShloMosaic.ValueIdx Cert.ReferenceIdeal Cert.ReferenceIdeal.Read

namespace Jets

/-! ### A position below 6 as a 32-bit index word -/

/-- The word of a position below 6 is not negative. -/
theorem word_not_neg (s : Fin 6) : IntOp.cmpi .slt (BitVec.ofNat 32 s.val) 0#32 = 0#1 := by
  fin_cases s <;> decide

/-- The word of a position below 6 is at least 0, read signed. -/
theorem word_ge_zero (s : Fin 6) : IntOp.cmpi .sge (BitVec.ofNat 32 s.val) 0#32 = 1#1 := by
  fin_cases s <;> decide

/-- The word of a position below 6 is at most 5, read signed. -/
theorem word_le_five (s : Fin 6) : IntOp.cmpi .sle (BitVec.ofNat 32 s.val) 5#32 = 1#1 := by
  fin_cases s <;> decide

/-- Read signed and clamped into [0, 5], the word of a position below 6 is that position. -/
theorem word_clamp (s : Fin 6) : min (BitVec.ofNat 32 s.val).toInt.toNat (6 - 1) = s.val := by
  fin_cases s <;> decide

/-- The wrap-around of negative indices, select (w < 0) (w + 6) w, keeps the word of a position. -/
theorem norm_word (s : Fin 6) :
    Scalar.select (IntOp.cmpi .slt (BitVec.ofNat 32 s.val) 0#32) (IntOp.addi (BitVec.ofNat 32 s.val) 6#32)
      (BitVec.ofNat 32 s.val) = BitVec.ofNat 32 s.val := by
  rw [word_not_neg, select_zero]

/-- The bounds test 0 ≤ w ≤ 5, and-reduced from the initial true bit, holds of the word of a position. -/
theorem inb_word (s : Fin 6) :
    IntOp.andi 1#1 (IntOp.andi (IntOp.cmpi .sge (BitVec.ofNat 32 s.val) 0#32)
      (IntOp.cmpi .sle (BitVec.ofNat 32 s.val) 5#32)) = 1#1 := by
  rw [word_ge_zero, word_le_five]; decide

/-- The clamped signed reading of a word that is a position's word, as an element of Fin 6, is that position. -/
theorem fin_of_word (w : BitVec 32) (s : Fin 6) (hw : w = BitVec.ofNat 32 s.val)
    {h : min w.toInt.toNat (6 - 1) < 6} : (⟨min w.toInt.toNat (6 - 1), h⟩ : Fin 6) = s := by
  subst hw; exact Fin.ext (word_clamp s)

/-! ### The two gathers at an index whose word is a position's -/

/-- The gather of rows of the first group is the generic gather of rows at sizes 2000000, 6, 3. -/
theorem rows_rec : gather_S2000000x6x3_S2000000x6x1_S2000000x6x3_2_1_0_0_1_2_113
    = Cert.Lib.TakeAlong.rowsDims 2000000 6 3 Facts₀.gather_S2000000x6x3_S2000000x6x1_S2000000x6x3_2_1_0_0_1_2_113_wf := rfl

/-- The gather of cells of the first group is the generic gather of cells at sizes 2000000, 6. -/
theorem cells_rec : gather_S2000000x6_S2000000x6x1_S2000000x6_n_1_0_0_1_2_11
    = Cert.Lib.TakeAlong.cellsDims 2000000 6 Facts₀.gather_S2000000x6_S2000000x6x1_S2000000x6_n_1_0_0_1_2_11_wf := rfl

/-- Where the start index at (n, j, 0) is the word of position s, the gather of rows reads row s of event n. -/
theorem rows_read {α : Type} (x : S2000000x6x3.Idx → α) (idx : IVec S2000000x6x1 32) (n : Fin 2000000) (j : Fin 6)
    (f : Fin 3) (s : Fin 6) (hw : idx (ix3 n j (0 : Fin 1)) = BitVec.ofNat 32 s.val) :
    Host.gather gather_S2000000x6x3_S2000000x6x1_S2000000x6x3_2_1_0_0_1_2_113 x idx (ix3 n j f) = x (ix3 n s f) := by
  rw [rows_rec, Cert.Lib.TakeAlong.gather_rows_apply (by decide), fin_of_word _ s hw]

/-- Where the start index at (n, j, 0) is the word of position s, the gather of cells reads cell s of event n. -/
theorem cells_read {α : Type} (x : S2000000x6.Idx → α) (idx : IVec S2000000x6x1 32) (n : Fin 2000000) (j : Fin 6)
    (s : Fin 6) (hw : idx (ix3 n j (0 : Fin 1)) = BitVec.ofNat 32 s.val) :
    Host.gather gather_S2000000x6_S2000000x6x1_S2000000x6_n_1_0_0_1_2_11 x idx (ix2 n j) = x (ix2 n s) := by
  rw [cells_rec, Cert.Lib.TakeAlong.gather_cells_apply (by decide), fin_of_word _ s hw]

/-! ### The chain of operations of the first group, read at an index of event n -/

/-- Object i of the first group is object i of the event. -/
abbrev up (i : Fin 6) : Fin 16 := ⟨i.val, Nat.lt_of_lt_of_le i.isLt (by decide)⟩

variable (x0 : (⟨S2000000x16x3, .f32⟩ : BufTy).Contents (Elt Ideal)) (n : Fin 2000000)

/-- The validity bits of the six objects of event n's first group. -/
def bits (i : Fin 6) : BitVec 1 := vbit (x0 (ix3 n (up i) (0 : Fin 3)))

/-- The object of event n's first group that the stable sort of the six keys puts at slot j. -/
def pos (j : Fin 6) : Fin 6 := sortedFrom (sbefore (bits x0 n)) j

/-- The slice of the first six objects, at (n, i, f). -/
theorem coll_apply (i : Fin 6) (f : Fin 3) : val_main_v0 (F := Ideal) x0 (ix3 n i f) = x0 (ix3 n (up i) f) := by
  have h : idx_main_v0 (ix3 n i f) = ix3 n (up i) f := by
    funext a
    match a with
    | ⟨0, _⟩ => rfl
    | ⟨1, _⟩ => rfl
    | ⟨2, _⟩ => rfl
  rw [val_main_v0_apply, h]

/-- The mask at (n, i): object i's first feature is positive. -/
theorem mask_apply (i : Fin 6) : val_main_v4 (F := Ideal) x0 (ix2 n i) = bits x0 n i := by
  have h : idx_main_v0 (idx_main_v1 (idx_main_v2 (ix2 n i))) = ix3 n (up i) (0 : Fin 3) := by
    have hi : i.val < 6 := i.isLt
    funext a
    match a with
    | ⟨0, _⟩ => exact Fin.ext (by show (n.val * 6 + i.val) / 6 = n.val; omega)
    | ⟨1, _⟩ => exact Fin.ext (by show (n.val * 6 + i.val) / 1 % 6 = i.val; omega)
    | ⟨2, _⟩ => rfl
  rw [val_main_v4_apply, val_main_v2_apply, val_main_v1_apply, val_main_v0_apply, h, val_main_v3_apply,
    val_main_cst_apply]
  rfl

/-- The sort key at (n, i): 0 for a valid object, 1 for the others. -/
theorem keys_apply (i : Fin 6) : val_main_v6 (F := Ideal) x0 (ix2 n i) = skey (bits x0 n i) := by
  rw [val_main_v6_apply, val_main_v5_apply, mask_apply, val_main_call0_v0_apply, val_main_c_apply,
    val_main_call0_v1_apply, val_main_c_0_apply]
  rfl

/-- The argsort at (n, j): the word of the position the stable sort of the keys puts at slot j. -/
theorem order_apply (j : Fin 6) : val_main_v7 (F := Ideal) x0 (ix2 n j) = BitVec.ofNat 32 (pos x0 n j).val := by
  -- the comparator on (key, iota) pairs compares the keys: it is "sorts before" on the validity bits
  have hcmp : (fun i i' : Fin 6 =>
      comparator_i32_i32_d1 (val_main_v6 (F := Ideal) x0 (ix2 n i), val_main_call1_v0 (F := Ideal) (ix2 n i))
        (val_main_v6 (F := Ideal) x0 (ix2 n i'), val_main_call1_v0 (F := Ideal) (ix2 n i')) == 1#1)
      = sbefore (bits x0 n) := by
    funext i i'
    show (IntOp.cmpi .slt (val_main_v6 (F := Ideal) x0 (ix2 n i)) (val_main_v6 (F := Ideal) x0 (ix2 n i')) == 1#1) = _
    rw [keys_apply, keys_apply]
    rfl
  unfold val_main_v7
  rw [Cert.Lib.TakeAlong.sort2_snd_apply, val_main_call1_v0_apply]
  exact congrArg (fun R : Fin 6 → Fin 6 → Bool => BitVec.ofNat 32 (sortedFrom R j).val) hcmp

/-- The argsort broadcast to [N, 6, 1], at (n, j, 0). -/
theorem order1_apply (j : Fin 6) :
    val_main_v8 (F := Ideal) x0 (ix3 n j (0 : Fin 1)) = BitVec.ofNat 32 (pos x0 n j).val := by
  have h : idx_main_v8 (ix3 n j (0 : Fin 1)) = ix2 n j := by
    funext a
    match a with
    | ⟨0, _⟩ => rfl
    | ⟨1, _⟩ => rfl
  rw [val_main_v8_apply, h, order_apply]

/-- The normalised start index of the gather of rows, at (n, j, 0). -/
theorem rowidx_apply (j : Fin 6) :
    val_main_call2_v4 (F := Ideal) x0 (ix3 n j (0 : Fin 1)) = BitVec.ofNat 32 (pos x0 n j).val := by
  rw [val_main_call2_v4_apply, val_main_call2_v1_apply, val_main_call2_v3_apply, order1_apply,
    val_main_call2_v0_apply, val_main_call2_c_apply, val_main_call2_v2_apply, val_main_call2_c_0_apply]
  exact norm_word _

/-- The bounds bit of the gather of rows, at (n, j): in bounds. -/
theorem rowinb_apply (j : Fin 6) : val_main_call2_v11 (F := Ideal) x0 (ix2 n j) = 1#1 := by
  unfold val_main_call2_v11
  rw [Cert.Lib.TakeAlong.reduce_and_unit_apply, val_main_call2_c_3_apply, val_main_call2_v10_apply,
    val_main_call2_v6_apply, val_main_call2_v9_apply, rowidx_apply, val_main_call2_v5_apply,
    val_main_call2_c_2_apply, val_main_call2_v8_apply, val_main_call2_v7_apply, val_main_call2_c_1_apply]
  exact inb_word _

/-- The rows taken along the order, at (n, j, f): feature f of the object sorted to slot j. -/
theorem taken_apply (j : Fin 6) (f : Fin 3) :
    val_main_v9 (F := Ideal) x0 (ix3 n j f) = x0 (ix3 n (up (pos x0 n j)) f) := by
  have h : idx_main_call2_v13 (ix3 n j f) = ix2 n j := by
    funext a
    match a with
    | ⟨0, _⟩ => rfl
    | ⟨1, _⟩ => rfl
  rw [val_main_v9_apply, val_main_call2_v13_apply, h, rowinb_apply, select_one]
  unfold val_main_call2_v12
  rw [rows_read _ _ n j f (pos x0 n j) (rowidx_apply x0 n j), coll_apply]

/-- The normalised start index of the gather of cells before its reshape, at (n, j). -/
theorem cellidx0_apply (j : Fin 6) :
    val_main_call3_v4 (F := Ideal) x0 (ix2 n j) = BitVec.ofNat 32 (pos x0 n j).val := by
  rw [val_main_call3_v4_apply, val_main_call3_v1_apply, val_main_call3_v3_apply, order_apply,
    val_main_call3_v0_apply, val_main_call3_c_apply, val_main_call3_v2_apply, val_main_call3_c_0_apply]
  exact norm_word _

/-- The normalised start index of the gather of cells, at (n, j, 0). -/
theorem cellidx_apply (j : Fin 6) :
    val_main_call3_v5 (F := Ideal) x0 (ix3 n j (0 : Fin 1)) = BitVec.ofNat 32 (pos x0 n j).val := by
  have h : idx_main_call3_v5 (ix3 n j (0 : Fin 1)) = ix2 n j := by
    have hj : j.val < 6 := j.isLt
    funext a
    match a with
    | ⟨0, _⟩ => exact Fin.ext (by show ((n.val * 6 + j.val) * 1 + 0) / 6 = n.val; omega)
    | ⟨1, _⟩ => exact Fin.ext (by show ((n.val * 6 + j.val) * 1 + 0) % 6 = j.val; omega)
  rw [val_main_call3_v5_apply, h, cellidx0_apply]

/-- The bounds bit of the gather of cells, at (n, j): in bounds. -/
theorem cellinb_apply (j : Fin 6) : val_main_call3_v12 (F := Ideal) x0 (ix2 n j) = 1#1 := by
  unfold val_main_call3_v12
  rw [Cert.Lib.TakeAlong.reduce_and_unit_apply, val_main_call3_c_3_apply, val_main_call3_v11_apply,
    val_main_call3_v7_apply, val_main_call3_v10_apply, cellidx_apply, val_main_call3_v6_apply,
    val_main_call3_c_2_apply, val_main_call3_v9_apply, val_main_call3_v8_apply, val_main_call3_c_1_apply]
  exact inb_word _

/-- The mask taken along the order, at (n, j): the validity bit of the object sorted to slot j. -/
theorem kept_apply (j : Fin 6) : val_main_v10 (F := Ideal) x0 (ix2 n j) = bits x0 n (pos x0 n j) := by
  rw [val_main_v10_apply, cellinb_apply, select_one]
  unfold val_main_call3_v13
  rw [cells_read _ _ n j (pos x0 n j) (cellidx_apply x0 n j), mask_apply]

/-- The kept bit as a number, broadcast over the features, at (n, j, f). -/
theorem keptf_apply (j : Fin 6) (f : Fin 3) :
    val_main_v13 (F := Ideal) x0 (ix3 n j f) = (((bits x0 n (pos x0 n j)).toNat : ℝ) : EReal) := by
  have h13 : idx_main_v13 (ix3 n j f) = ix3 n j (0 : Fin 1) := by
    funext a
    match a with
    | ⟨0, _⟩ => rfl
    | ⟨1, _⟩ => rfl
    | ⟨2, _⟩ => rfl
  have h11 : idx_main_v11 (ix3 n j (0 : Fin 1)) = ix2 n j := by
    funext a
    match a with
    | ⟨0, _⟩ => rfl
    | ⟨1, _⟩ => rfl
  rw [val_main_v13_apply, h13, val_main_v12_apply, val_main_v11_apply, h11, kept_apply]
  rfl

end Jets

/-- Slot j, feature f of event n's first group as the reference computes it. -/
theorem jets_apply (x0 : (⟨S2000000x16x3, .f32⟩ : BufTy).Contents (Elt Ideal)) (n : Fin 2000000) (j : Fin 6) (f : Fin 3) :
    val_main_v14 (F := Ideal) x0 (ix3 n j f)
      = racc ![vbit (x0 (ix3 n 0 0)), vbit (x0 (ix3 n 1 0)), vbit (x0 (ix3 n 2 0)), vbit (x0 (ix3 n 3 0)),
            vbit (x0 (ix3 n 4 0)), vbit (x0 (ix3 n 5 0))]
          ![x0 (ix3 n 0 f), x0 (ix3 n 1 f), x0 (ix3 n 2 f), x0 (ix3 n 3 f), x0 (ix3 n 4 f), x0 (ix3 n 5 f)] j := by
  -- the six validity bits and the six values as functions of the object's number
  have hb : ![vbit (x0 (ix3 n 0 0)), vbit (x0 (ix3 n 1 0)), vbit (x0 (ix3 n 2 0)), vbit (x0 (ix3 n 3 0)),
      vbit (x0 (ix3 n 4 0)), vbit (x0 (ix3 n 5 0))] = Jets.bits x0 n := by
    funext i; fin_cases i <;> rfl
  have hv : ![x0 (ix3 n 0 f), x0 (ix3 n 1 f), x0 (ix3 n 2 f), x0 (ix3 n 3 f), x0 (ix3 n 4 f), x0 (ix3 n 5 f)]
      = fun i : Fin 6 => x0 (ix3 n (Jets.up i) f) := by
    funext i; fin_cases i <;> rfl
  rw [hb, hv, val_main_v14_apply, Jets.taken_apply, Jets.keptf_apply]
  rfl

end Cert.Reorder

end
-- ==== Proof.RefTriples.lean ====
/-
  The reference's three groups of three objects (6–8, 9–11, 12–14) read at an entry: the object the stable sort of
  the group's three 0/1 keys puts at slot j, gathered feature by feature, times its gathered validity read as a number —
  `racc` of the group's three validity bits and three values.
-/
import proofs.«105476_j10806137717520_1_alg».proof.Proof.RefRead
import proofs.«105476_j10806137717520_1_alg».proof.Proof.Spec
import proofs.«105476_j10806137717520_1_alg».proof.Proof.LibTakeAlong
import Idealize.ShloMosaic.Lib.ValueIdx
import Idealize.ShloMosaic.Lib.Pipeline.Value

noncomputable section

namespace Cert.Reorder

open Idealize.ShloMosaic Idealize.ShloMosaic.ValueIdx Cert.ReferenceIdeal Cert.ReferenceIdeal.Read

namespace Triples

/-! ### The index word of a take along an axis of length three -/

/-- The index word as the take normalises it: to a negative word the axis length 3 is added. -/
def norm3 (w : BitVec 32) : BitVec 32 := Scalar.select (IntOp.cmpi .slt w 0#32) (IntOp.addi w 3#32) w

/-- The take's bounds bit: the normalised word lies in [0, 2]; the and of the two tests, folded onto the initial `true`. -/
def inb3 (w : BitVec 32) : BitVec 1 :=
  IntOp.andi 1#1 (IntOp.andi (IntOp.cmpi .sge (norm3 w) 0#32) (IntOp.cmpi .sle (norm3 w) 2#32))

/-- A position of the axis, written as a word, is not negative: normalising keeps it. -/
theorem norm3_pos (s : Fin 3) : norm3 (BitVec.ofNat 32 s.val) = BitVec.ofNat 32 s.val := by
  fin_cases s <;> decide

/-- A position of the axis, written as a word, passes the bounds test. -/
theorem inb3_pos (s : Fin 3) : inb3 (BitVec.ofNat 32 s.val) = 1#1 := by
  fin_cases s <;> decide

/-- A position of the axis, written as a word, read signed and clamped into [0, 2], is itself. -/
theorem clamp3_pos (s : Fin 3) : min (BitVec.ofNat 32 s.val).toInt.toNat (3 - 1) = s.val := by
  fin_cases s <;> decide

end Triples

namespace Triples

/-! ### Objects 6–8 -/

/-- The group's array at (n, i, f): the argument at object 6 + i. -/
theorem e_coll (x0 : (⟨S2000000x16x3, .f32⟩ : BufTy).Contents (Elt Ideal)) (n : Fin 2000000) (i f : Fin 3) :
    val_main_v15 (F := Ideal) x0 (ix3 n i f) = x0 (ix3 n ⟨6 + i.val, by have := i.isLt; omega⟩ f) := by
  rw [val_main_v15_apply]
  congr 1
  funext a
  match a with
  | ⟨0, _⟩ => rfl
  | ⟨1, _⟩ => rfl
  | ⟨2, _⟩ => rfl

/-- The group's mask at (n, i): the validity bit of object 6 + i. -/
theorem e_mask (x0 : (⟨S2000000x16x3, .f32⟩ : BufTy).Contents (Elt Ideal)) (n : Fin 2000000) (i : Fin 3) :
    val_main_v19 (F := Ideal) x0 (ix2 n i) = vbit (x0 (ix3 n ⟨6 + i.val, by have := i.isLt; omega⟩ 0)) := by
  have hr : idx_main_v17 (ix2 n i) = ix3 n i (0 : Fin 1) := by
    funext a
    match a with
    | ⟨0, _⟩ => exact Fin.ext (by show (n.val * 3 + i.val) / 3 = n.val; have := i.isLt; omega)
    | ⟨1, _⟩ => exact Fin.ext (by show (n.val * 3 + i.val) / 1 % 3 = i.val; have := i.isLt; omega)
    | ⟨2, _⟩ => rfl
  have hs : idx_main_v16 (ix3 n i (0 : Fin 1)) = ix3 n i (0 : Fin 3) := by
    funext a
    match a with
    | ⟨0, _⟩ => rfl
    | ⟨1, _⟩ => rfl
    | ⟨2, _⟩ => rfl
  rw [val_main_v19_apply, val_main_v17_apply, hr, val_main_v16_apply, hs, e_coll, val_main_v18_apply,
    val_main_cst_1_apply]
  rfl

/-- The sort key at (n, i): 0 for a valid object, 1 for an invalid one. -/
theorem e_keys (x0 : (⟨S2000000x16x3, .f32⟩ : BufTy).Contents (Elt Ideal)) (n : Fin 2000000) (i : Fin 3) :
    val_main_v21 (F := Ideal) x0 (ix2 n i) = skey (val_main_v19 (F := Ideal) x0 (ix2 n i)) := by
  rw [val_main_v21_apply, val_main_v20_apply, val_main_call4_v0_apply, val_main_c_2_apply, val_main_call4_v1_apply,
    val_main_c_3_apply]
  rfl

/-- The argsort at (n, j): the position the stable sort of row n's keys puts at slot j, as a word. -/
theorem e_order (x0 : (⟨S2000000x16x3, .f32⟩ : BufTy).Contents (Elt Ideal)) (n : Fin 2000000) (j : Fin 3) :
    val_main_v22 (F := Ideal) x0 (ix2 n j) = BitVec.ofNat 32 (sortedFrom (sbefore fun i => val_main_v19 (F := Ideal) x0 (ix2 n i)) j).val := by
  -- the comparator of the pairs (key, position) compares the keys
  have hb : (fun i i' : Fin 3 =>
      comparator_i32_i32_d1 (val_main_v21 (F := Ideal) x0 (ix2 n i), val_main_call5_v0 (F := Ideal) (ix2 n i))
        (val_main_v21 (F := Ideal) x0 (ix2 n i'), val_main_call5_v0 (F := Ideal) (ix2 n i')) == 1#1)
      = sbefore fun i => val_main_v19 (F := Ideal) x0 (ix2 n i) := by
    funext i i'
    show (IntOp.cmpi .slt (val_main_v21 (F := Ideal) x0 (ix2 n i)) (val_main_v21 (F := Ideal) x0 (ix2 n i')) == 1#1) = _
    rw [e_keys, e_keys]
    rfl
  unfold val_main_v22
  rw [Cert.Lib.TakeAlong.sort2_snd_apply, hb, val_main_call5_v0_apply]

/-- The row take's normalised index at (n, j, 0). -/
theorem e_ridx (x0 : (⟨S2000000x16x3, .f32⟩ : BufTy).Contents (Elt Ideal)) (n : Fin 2000000) (j : Fin 3) :
    val_main_call6_v4 (F := Ideal) x0 (ix3 n j (0 : Fin 1)) = norm3 (val_main_v22 (F := Ideal) x0 (ix2 n j)) := by
  have hb : idx_main_v23 (ix3 n j (0 : Fin 1)) = ix2 n j := by
    funext a
    match a with
    | ⟨0, _⟩ => rfl
    | ⟨1, _⟩ => rfl
  rw [val_main_call6_v4_apply, val_main_call6_v1_apply, val_main_call6_v3_apply, val_main_v23_apply, hb,
    val_main_call6_v0_apply, val_main_call6_c_apply, val_main_call6_v2_apply, val_main_call6_c_0_apply]
  rfl

/-- The row take's bounds bit at (n, j). -/
theorem e_rinb (x0 : (⟨S2000000x16x3, .f32⟩ : BufTy).Contents (Elt Ideal)) (n : Fin 2000000) (j : Fin 3) :
    val_main_call6_v11 (F := Ideal) x0 (ix2 n j) = inb3 (val_main_v22 (F := Ideal) x0 (ix2 n j)) := by
  unfold val_main_call6_v11
  rw [Cert.Lib.TakeAlong.reduce_and_unit_apply, val_main_call6_c_3_apply, val_main_call6_v10_apply, val_main_call6_v6_apply,
    val_main_call6_v9_apply, e_ridx, val_main_call6_v5_apply, val_main_call6_c_2_apply, val_main_call6_v8_apply,
    val_main_call6_v7_apply, val_main_call6_c_1_apply]
  rfl

/-- The gathered rows at (n, j, f): the group's array at the sorted position. -/
theorem e_gathered (x0 : (⟨S2000000x16x3, .f32⟩ : BufTy).Contents (Elt Ideal)) (n : Fin 2000000) (j f : Fin 3) :
    val_main_v24 (F := Ideal) x0 (ix3 n j f) = val_main_v15 (F := Ideal) x0 (ix3 n (sortedFrom (sbefore fun i => val_main_v19 (F := Ideal) x0 (ix2 n i)) j) f) := by
  have hb : idx_main_call6_v13 (ix3 n j f) = ix2 n j := by
    funext a
    match a with
    | ⟨0, _⟩ => rfl
    | ⟨1, _⟩ => rfl
  -- the index is in bounds: the select takes the gathered value
  rw [val_main_v24_apply, val_main_call6_v13_apply, hb, e_rinb, e_order, inb3_pos, select_one]
  unfold val_main_call6_v12
  refine (Cert.Lib.TakeAlong.gather_rows_apply (N := 2000000) (k := 3) (C := 3) (by decide) _ _ _ n j f).trans ?_
  -- the clamped start index is the sorted position
  refine congrArg (fun m => val_main_v15 (F := Ideal) x0 (ix3 n m f)) (Fin.ext ?_)
  show min (val_main_call6_v4 (F := Ideal) x0 (ix3 n j (0 : Fin 1))).toInt.toNat (3 - 1) = _
  rw [e_ridx, e_order, norm3_pos]
  exact clamp3_pos _

/-- The cell take's normalised index at (n, j, 0). -/
theorem e_cidx (x0 : (⟨S2000000x16x3, .f32⟩ : BufTy).Contents (Elt Ideal)) (n : Fin 2000000) (j : Fin 3) :
    val_main_call7_v5 (F := Ideal) x0 (ix3 n j (0 : Fin 1)) = norm3 (val_main_v22 (F := Ideal) x0 (ix2 n j)) := by
  have hr : idx_main_call7_v5 (ix3 n j (0 : Fin 1)) = ix2 n j := by
    funext a
    match a with
    | ⟨0, _⟩ => exact Fin.ext (by show ((n.val * 3 + j.val) * 1 + 0) / 3 = n.val; have := j.isLt; omega)
    | ⟨1, _⟩ => exact Fin.ext (by show ((n.val * 3 + j.val) * 1 + 0) % 3 = j.val; have := j.isLt; omega)
  rw [val_main_call7_v5_apply, hr, val_main_call7_v4_apply, val_main_call7_v1_apply, val_main_call7_v3_apply,
    val_main_call7_v0_apply, val_main_call7_c_apply, val_main_call7_v2_apply, val_main_call7_c_0_apply]
  rfl

/-- The cell take's bounds bit at (n, j). -/
theorem e_cinb (x0 : (⟨S2000000x16x3, .f32⟩ : BufTy).Contents (Elt Ideal)) (n : Fin 2000000) (j : Fin 3) :
    val_main_call7_v12 (F := Ideal) x0 (ix2 n j) = inb3 (val_main_v22 (F := Ideal) x0 (ix2 n j)) := by
  unfold val_main_call7_v12
  rw [Cert.Lib.TakeAlong.reduce_and_unit_apply, val_main_call7_c_3_apply, val_main_call7_v11_apply, val_main_call7_v7_apply,
    val_main_call7_v10_apply, e_cidx, val_main_call7_v6_apply, val_main_call7_c_2_apply, val_main_call7_v9_apply,
    val_main_call7_v8_apply, val_main_call7_c_1_apply]
  rfl

/-- The gathered mask at (n, j): the validity bit at the sorted position. -/
theorem e_kept (x0 : (⟨S2000000x16x3, .f32⟩ : BufTy).Contents (Elt Ideal)) (n : Fin 2000000) (j : Fin 3) :
    val_main_v25 (F := Ideal) x0 (ix2 n j) = val_main_v19 (F := Ideal) x0 (ix2 n (sortedFrom (sbefore fun i => val_main_v19 (F := Ideal) x0 (ix2 n i)) j)) := by
  -- the index is in bounds: the select takes the gathered bit
  rw [val_main_v25_apply, e_cinb, e_order, inb3_pos, select_one]
  unfold val_main_call7_v13
  refine (Cert.Lib.TakeAlong.gather_cells_apply (N := 2000000) (k := 3) (by decide) _ _ _ n j).trans ?_
  -- the clamped start index is the sorted position
  refine congrArg (fun m => val_main_v19 (F := Ideal) x0 (ix2 n m)) (Fin.ext ?_)
  show min (val_main_call7_v5 (F := Ideal) x0 (ix3 n j (0 : Fin 1))).toInt.toNat (3 - 1) = _
  rw [e_cidx, e_order, norm3_pos]
  exact clamp3_pos _

/-- The gathered mask as a number, spread over the features: at (n, j, f) the gathered bit read unsigned. -/
theorem e_keptf (x0 : (⟨S2000000x16x3, .f32⟩ : BufTy).Contents (Elt Ideal)) (n : Fin 2000000) (j f : Fin 3) :
    val_main_v28 (F := Ideal) x0 (ix3 n j f) = ((((val_main_v19 (F := Ideal) x0 (ix2 n (sortedFrom (sbefore fun i => val_main_v19 (F := Ideal) x0 (ix2 n i)) j))).toNat : ℝ)) : EReal) := by
  have hf : idx_main_v28 (ix3 n j f) = ix3 n j (0 : Fin 1) := by
    funext a
    match a with
    | ⟨0, _⟩ => rfl
    | ⟨1, _⟩ => rfl
    | ⟨2, _⟩ => rfl
  have hb : idx_main_v26 (ix3 n j (0 : Fin 1)) = ix2 n j := by
    funext a
    match a with
    | ⟨0, _⟩ => rfl
    | ⟨1, _⟩ => rfl
  rw [val_main_v28_apply, hf, val_main_v27_apply, val_main_v26_apply, hb, e_kept]
  rfl

/-- The group's result at (n, j, f) over the stages' own bit and value vectors. -/
theorem e_slot (x0 : (⟨S2000000x16x3, .f32⟩ : BufTy).Contents (Elt Ideal)) (n : Fin 2000000) (j f : Fin 3) :
    val_main_v29 (F := Ideal) x0 (ix3 n j f)
      = racc (fun i : Fin 3 => val_main_v19 (F := Ideal) x0 (ix2 n i))
          (fun i : Fin 3 => x0 (ix3 n ⟨6 + i.val, by have := i.isLt; omega⟩ f)) j := by
  rw [val_main_v29_apply, e_gathered, e_keptf, e_coll, Ideal.mulf_def]
  rfl

end Triples

/-- Slot j, feature f of event n's second group (objects 6–8). -/
theorem electrons_apply (x0 : (⟨S2000000x16x3, .f32⟩ : BufTy).Contents (Elt Ideal)) (n : Fin 2000000) (j : Fin 3) (f : Fin 3) :
    val_main_v29 (F := Ideal) x0 (ix3 n j f)
      = racc ![vbit (x0 (ix3 n 6 0)), vbit (x0 (ix3 n 7 0)), vbit (x0 (ix3 n 8 0))]
          ![x0 (ix3 n 6 f), x0 (ix3 n 7 f), x0 (ix3 n 8 f)] j := by
  have hb : (fun i : Fin 3 => val_main_v19 (F := Ideal) x0 (ix2 n i))
      = ![vbit (x0 (ix3 n 6 0)), vbit (x0 (ix3 n 7 0)), vbit (x0 (ix3 n 8 0))] := by
    funext i
    rw [Triples.e_mask]
    fin_cases i <;> rfl
  have hv : (fun i : Fin 3 => x0 (ix3 n ⟨6 + i.val, by have := i.isLt; omega⟩ f))
      = ![x0 (ix3 n 6 f), x0 (ix3 n 7 f), x0 (ix3 n 8 f)] := by
    funext i
    fin_cases i <;> rfl
  rw [Triples.e_slot, hb, hv]

namespace Triples

/-! ### Objects 9–11 -/

/-- The group's array at (n, i, f): the argument at object 9 + i. -/
theorem m_coll (x0 : (⟨S2000000x16x3, .f32⟩ : BufTy).Contents (Elt Ideal)) (n : Fin 2000000) (i f : Fin 3) :
    val_main_v30 (F := Ideal) x0 (ix3 n i f) = x0 (ix3 n ⟨9 + i.val, by have := i.isLt; omega⟩ f) := by
  rw [val_main_v30_apply]
  congr 1
  funext a
  match a with
  | ⟨0, _⟩ => rfl
  | ⟨1, _⟩ => rfl
  | ⟨2, _⟩ => rfl

/-- The group's mask at (n, i): the validity bit of object 9 + i. -/
theorem m_mask (x0 : (⟨S2000000x16x3, .f32⟩ : BufTy).Contents (Elt Ideal)) (n : Fin 2000000) (i : Fin 3) :
    val_main_v34 (F := Ideal) x0 (ix2 n i) = vbit (x0 (ix3 n ⟨9 + i.val, by have := i.isLt; omega⟩ 0)) := by
  have hr : idx_main_v32 (ix2 n i) = ix3 n i (0 : Fin 1) := by
    funext a
    match a with
    | ⟨0, _⟩ => exact Fin.ext (by show (n.val * 3 + i.val) / 3 = n.val; have := i.isLt; omega)
    | ⟨1, _⟩ => exact Fin.ext (by show (n.val * 3 + i.val) / 1 % 3 = i.val; have := i.isLt; omega)
    | ⟨2, _⟩ => rfl
  have hs : idx_main_v31 (ix3 n i (0 : Fin 1)) = ix3 n i (0 : Fin 3) := by
    funext a
    match a with
    | ⟨0, _⟩ => rfl
    | ⟨1, _⟩ => rfl
    | ⟨2, _⟩ => rfl
  rw [val_main_v34_apply, val_main_v32_apply, hr, val_main_v31_apply, hs, m_coll, val_main_v33_apply,
    val_main_cst_4_apply]
  rfl

/-- The sort key at (n, i): 0 for a valid object, 1 for an invalid one. -/
theorem m_keys (x0 : (⟨S2000000x16x3, .f32⟩ : BufTy).Contents (Elt Ideal)) (n : Fin 2000000) (i : Fin 3) :
    val_main_v36 (F := Ideal) x0 (ix2 n i) = skey (val_main_v34 (F := Ideal) x0 (ix2 n i)) := by
  rw [val_main_v36_apply, val_main_v35_apply, val_main_call8_v0_apply, val_main_c_5_apply, val_main_call8_v1_apply,
    val_main_c_6_apply]
  rfl

/-- The argsort at (n, j): the position the stable sort of row n's keys puts at slot j, as a word. -/
theorem m_order (x0 : (⟨S2000000x16x3, .f32⟩ : BufTy).Contents (Elt Ideal)) (n : Fin 2000000) (j : Fin 3) :
    val_main_v37 (F := Ideal) x0 (ix2 n j) = BitVec.ofNat 32 (sortedFrom (sbefore fun i => val_main_v34 (F := Ideal) x0 (ix2 n i)) j).val := by
  -- the comparator of the pairs (key, position) compares the keys
  have hb : (fun i i' : Fin 3 =>
      comparator_i32_i32_d1 (val_main_v36 (F := Ideal) x0 (ix2 n i), val_main_call9_v0 (F := Ideal) (ix2 n i))
        (val_main_v36 (F := Ideal) x0 (ix2 n i'), val_main_call9_v0 (F := Ideal) (ix2 n i')) == 1#1)
      = sbefore fun i => val_main_v34 (F := Ideal) x0 (ix2 n i) := by
    funext i i'
    show (IntOp.cmpi .slt (val_main_v36 (F := Ideal) x0 (ix2 n i)) (val_main_v36 (F := Ideal) x0 (ix2 n i')) == 1#1) = _
    rw [m_keys, m_keys]
    rfl
  unfold val_main_v37
  rw [Cert.Lib.TakeAlong.sort2_snd_apply, hb, val_main_call9_v0_apply]

/-- The row take's normalised index at (n, j, 0). -/
theorem m_ridx (x0 : (⟨S2000000x16x3, .f32⟩ : BufTy).Contents (Elt Ideal)) (n : Fin 2000000) (j : Fin 3) :
    val_main_call10_v4 (F := Ideal) x0 (ix3 n j (0 : Fin 1)) = norm3 (val_main_v37 (F := Ideal) x0 (ix2 n j)) := by
  have hb : idx_main_v38 (ix3 n j (0 : Fin 1)) = ix2 n j := by
    funext a
    match a with
    | ⟨0, _⟩ => rfl
    | ⟨1, _⟩ => rfl
  rw [val_main_call10_v4_apply, val_main_call10_v1_apply, val_main_call10_v3_apply, val_main_v38_apply, hb,
    val_main_call10_v0_apply, val_main_call10_c_apply, val_main_call10_v2_apply, val_main_call10_c_0_apply]
  rfl

/-- The row take's bounds bit at (n, j). -/
theorem m_rinb (x0 : (⟨S2000000x16x3, .f32⟩ : BufTy).Contents (Elt Ideal)) (n : Fin 2000000) (j : Fin 3) :
    val_main_call10_v11 (F := Ideal) x0 (ix2 n j) = inb3 (val_main_v37 (F := Ideal) x0 (ix2 n j)) := by
  unfold val_main_call10_v11
  rw [Cert.Lib.TakeAlong.reduce_and_unit_apply, val_main_call10_c_3_apply, val_main_call10_v10_apply, val_main_call10_v6_apply,
    val_main_call10_v9_apply, m_ridx, val_main_call10_v5_apply, val_main_call10_c_2_apply, val_main_call10_v8_apply,
    val_main_call10_v7_apply, val_main_call10_c_1_apply]
  rfl

/-- The gathered rows at (n, j, f): the group's array at the sorted position. -/
theorem m_gathered (x0 : (⟨S2000000x16x3, .f32⟩ : BufTy).Contents (Elt Ideal)) (n : Fin 2000000) (j f : Fin 3) :
    val_main_v39 (F := Ideal) x0 (ix3 n j f) = val_main_v30 (F := Ideal) x0 (ix3 n (sortedFrom (sbefore fun i => val_main_v34 (F := Ideal) x0 (ix2 n i)) j) f) := by
  have hb : idx_main_call10_v13 (ix3 n j f) = ix2 n j := by
    funext a
    match a with
    | ⟨0, _⟩ => rfl
    | ⟨1, _⟩ => rfl
  -- the index is in bounds: the select takes the gathered value
  rw [val_main_v39_apply, val_main_call10_v13_apply, hb, m_rinb, m_order, inb3_pos, select_one]
  unfold val_main_call10_v12
  refine (Cert.Lib.TakeAlong.gather_rows_apply (N := 2000000) (k := 3) (C := 3) (by decide) _ _ _ n j f).trans ?_
  -- the clamped start index is the sorted position
  refine congrArg (fun m => val_main_v30 (F := Ideal) x0 (ix3 n m f)) (Fin.ext ?_)
  show min (val_main_call10_v4 (F := Ideal) x0 (ix3 n j (0 : Fin 1))).toInt.toNat (3 - 1) = _
  rw [m_ridx, m_order, norm3_pos]
  exact clamp3_pos _

/-- The cell take's normalised index at (n, j, 0). -/
theorem m_cidx (x0 : (⟨S2000000x16x3, .f32⟩ : BufTy).Contents (Elt Ideal)) (n : Fin 2000000) (j : Fin 3) :
    val_main_call11_v5 (F := Ideal) x0 (ix3 n j (0 : Fin 1)) = norm3 (val_main_v37 (F := Ideal) x0 (ix2 n j)) := by
  have hr : idx_main_call11_v5 (ix3 n j (0 : Fin 1)) = ix2 n j := by
    funext a
    match a with
    | ⟨0, _⟩ => exact Fin.ext (by show ((n.val * 3 + j.val) * 1 + 0) / 3 = n.val; have := j.isLt; omega)
    | ⟨1, _⟩ => exact Fin.ext (by show ((n.val * 3 + j.val) * 1 + 0) % 3 = j.val; have := j.isLt; omega)
  rw [val_main_call11_v5_apply, hr, val_main_call11_v4_apply, val_main_call11_v1_apply, val_main_call11_v3_apply,
    val_main_call11_v0_apply, val_main_call11_c_apply, val_main_call11_v2_apply, val_main_call11_c_0_apply]
  rfl

/-- The cell take's bounds bit at (n, j). -/
theorem m_cinb (x0 : (⟨S2000000x16x3, .f32⟩ : BufTy).Contents (Elt Ideal)) (n : Fin 2000000) (j : Fin 3) :
    val_main_call11_v12 (F := Ideal) x0 (ix2 n j) = inb3 (val_main_v37 (F := Ideal) x0 (ix2 n j)) := by
  unfold val_main_call11_v12
  rw [Cert.Lib.TakeAlong.reduce_and_unit_apply, val_main_call11_c_3_apply, val_main_call11_v11_apply, val_main_call11_v7_apply,
    val_main_call11_v10_apply, m_cidx, val_main_call11_v6_apply, val_main_call11_c_2_apply, val_main_call11_v9_apply,
    val_main_call11_v8_apply, val_main_call11_c_1_apply]
  rfl

/-- The gathered mask at (n, j): the validity bit at the sorted position. -/
theorem m_kept (x0 : (⟨S2000000x16x3, .f32⟩ : BufTy).Contents (Elt Ideal)) (n : Fin 2000000) (j : Fin 3) :
    val_main_v40 (F := Ideal) x0 (ix2 n j) = val_main_v34 (F := Ideal) x0 (ix2 n (sortedFrom (sbefore fun i => val_main_v34 (F := Ideal) x0 (ix2 n i)) j)) := by
  -- the index is in bounds: the select takes the gathered bit
  rw [val_main_v40_apply, m_cinb, m_order, inb3_pos, select_one]
  unfold val_main_call11_v13
  refine (Cert.Lib.TakeAlong.gather_cells_apply (N := 2000000) (k := 3) (by decide) _ _ _ n j).trans ?_
  -- the clamped start index is the sorted position
  refine congrArg (fun m => val_main_v34 (F := Ideal) x0 (ix2 n m)) (Fin.ext ?_)
  show min (val_main_call11_v5 (F := Ideal) x0 (ix3 n j (0 : Fin 1))).toInt.toNat (3 - 1) = _
  rw [m_cidx, m_order, norm3_pos]
  exact clamp3_pos _

/-- The gathered mask as a number, spread over the features: at (n, j, f) the gathered bit read unsigned. -/
theorem m_keptf (x0 : (⟨S2000000x16x3, .f32⟩ : BufTy).Contents (Elt Ideal)) (n : Fin 2000000) (j f : Fin 3) :
    val_main_v43 (F := Ideal) x0 (ix3 n j f) = ((((val_main_v34 (F := Ideal) x0 (ix2 n (sortedFrom (sbefore fun i => val_main_v34 (F := Ideal) x0 (ix2 n i)) j))).toNat : ℝ)) : EReal) := by
  have hf : idx_main_v43 (ix3 n j f) = ix3 n j (0 : Fin 1) := by
    funext a
    match a with
    | ⟨0, _⟩ => rfl
    | ⟨1, _⟩ => rfl
    | ⟨2, _⟩ => rfl
  have hb : idx_main_v41 (ix3 n j (0 : Fin 1)) = ix2 n j := by
    funext a
    match a with
    | ⟨0, _⟩ => rfl
    | ⟨1, _⟩ => rfl
  rw [val_main_v43_apply, hf, val_main_v42_apply, val_main_v41_apply, hb, m_kept]
  rfl

/-- The group's result at (n, j, f) over the stages' own bit and value vectors. -/
theorem m_slot (x0 : (⟨S2000000x16x3, .f32⟩ : BufTy).Contents (Elt Ideal)) (n : Fin 2000000) (j f : Fin 3) :
    val_main_v44 (F := Ideal) x0 (ix3 n j f)
      = racc (fun i : Fin 3 => val_main_v34 (F := Ideal) x0 (ix2 n i))
          (fun i : Fin 3 => x0 (ix3 n ⟨9 + i.val, by have := i.isLt; omega⟩ f)) j := by
  rw [val_main_v44_apply, m_gathered, m_keptf, m_coll, Ideal.mulf_def]
  rfl

end Triples

/-- Slot j, feature f of event n's third group (objects 9–11). -/
theorem muons_apply (x0 : (⟨S2000000x16x3, .f32⟩ : BufTy).Contents (Elt Ideal)) (n : Fin 2000000) (j : Fin 3) (f : Fin 3) :
    val_main_v44 (F := Ideal) x0 (ix3 n j f)
      = racc ![vbit (x0 (ix3 n 9 0)), vbit (x0 (ix3 n 10 0)), vbit (x0 (ix3 n 11 0))]
          ![x0 (ix3 n 9 f), x0 (ix3 n 10 f), x0 (ix3 n 11 f)] j := by
  have hb : (fun i : Fin 3 => val_main_v34 (F := Ideal) x0 (ix2 n i))
      = ![vbit (x0 (ix3 n 9 0)), vbit (x0 (ix3 n 10 0)), vbit (x0 (ix3 n 11 0))] := by
    funext i
    rw [Triples.m_mask]
    fin_cases i <;> rfl
  have hv : (fun i : Fin 3 => x0 (ix3 n ⟨9 + i.val, by have := i.isLt; omega⟩ f))
      = ![x0 (ix3 n 9 f), x0 (ix3 n 10 f), x0 (ix3 n 11 f)] := by
    funext i
    fin_cases i <;> rfl
  rw [Triples.m_slot, hb, hv]

namespace Triples

/-! ### Objects 12–14 -/

/-- The group's array at (n, i, f): the argument at object 12 + i. -/
theorem p_coll (x0 : (⟨S2000000x16x3, .f32⟩ : BufTy).Contents (Elt Ideal)) (n : Fin 2000000) (i f : Fin 3) :
    val_main_v45 (F := Ideal) x0 (ix3 n i f) = x0 (ix3 n ⟨12 + i.val, by have := i.isLt; omega⟩ f) := by
  rw [val_main_v45_apply]
  congr 1
  funext a
  match a with
  | ⟨0, _⟩ => rfl
  | ⟨1, _⟩ => rfl
  | ⟨2, _⟩ => rfl

/-- The group's mask at (n, i): the validity bit of object 12 + i. -/
theorem p_mask (x0 : (⟨S2000000x16x3, .f32⟩ : BufTy).Contents (Elt Ideal)) (n : Fin 2000000) (i : Fin 3) :
    val_main_v49 (F := Ideal) x0 (ix2 n i) = vbit (x0 (ix3 n ⟨12 + i.val, by have := i.isLt; omega⟩ 0)) := by
  have hr : idx_main_v47 (ix2 n i) = ix3 n i (0 : Fin 1) := by
    funext a
    match a with
    | ⟨0, _⟩ => exact Fin.ext (by show (n.val * 3 + i.val) / 3 = n.val; have := i.isLt; omega)
    | ⟨1, _⟩ => exact Fin.ext (by show (n.val * 3 + i.val) / 1 % 3 = i.val; have := i.isLt; omega)
    | ⟨2, _⟩ => rfl
  have hs : idx_main_v46 (ix3 n i (0 : Fin 1)) = ix3 n i (0 : Fin 3) := by
    funext a
    match a with
    | ⟨0, _⟩ => rfl
    | ⟨1, _⟩ => rfl
    | ⟨2, _⟩ => rfl
  rw [val_main_v49_apply, val_main_v47_apply, hr, val_main_v46_apply, hs, p_coll, val_main_v48_apply,
    val_main_cst_7_apply]
  rfl

/-- The sort key at (n, i): 0 for a valid object, 1 for an invalid one. -/
theorem p_keys (x0 : (⟨S2000000x16x3, .f32⟩ : BufTy).Contents (Elt Ideal)) (n : Fin 2000000) (i : Fin 3) :
    val_main_v51 (F := Ideal) x0 (ix2 n i) = skey (val_main_v49 (F := Ideal) x0 (ix2 n i)) := by
  rw [val_main_v51_apply, val_main_v50_apply, val_main_call12_v0_apply, val_main_c_8_apply, val_main_call12_v1_apply,
    val_main_c_9_apply]
  rfl

/-- The argsort at (n, j): the position the stable sort of row n's keys puts at slot j, as a word. -/
theorem p_order (x0 : (⟨S2000000x16x3, .f32⟩ : BufTy).Contents (Elt Ideal)) (n : Fin 2000000) (j : Fin 3) :
    val_main_v52 (F := Ideal) x0 (ix2 n j) = BitVec.ofNat 32 (sortedFrom (sbefore fun i => val_main_v49 (F := Ideal) x0 (ix2 n i)) j).val := by
  -- the comparator of the pairs (key, position) compares the keys
  have hb : (fun i i' : Fin 3 =>
      comparator_i32_i32_d1 (val_main_v51 (F := Ideal) x0 (ix2 n i), val_main_call13_v0 (F := Ideal) (ix2 n i))
        (val_main_v51 (F := Ideal) x0 (ix2 n i'), val_main_call13_v0 (F := Ideal) (ix2 n i')) == 1#1)
      = sbefore fun i => val_main_v49 (F := Ideal) x0 (ix2 n i) := by
    funext i i'
    show (IntOp.cmpi .slt (val_main_v51 (F := Ideal) x0 (ix2 n i)) (val_main_v51 (F := Ideal) x0 (ix2 n i')) == 1#1) = _
    rw [p_keys, p_keys]
    rfl
  unfold val_main_v52
  rw [Cert.Lib.TakeAlong.sort2_snd_apply, hb, val_main_call13_v0_apply]

/-- The row take's normalised index at (n, j, 0). -/
theorem p_ridx (x0 : (⟨S2000000x16x3, .f32⟩ : BufTy).Contents (Elt Ideal)) (n : Fin 2000000) (j : Fin 3) :
    val_main_call14_v4 (F := Ideal) x0 (ix3 n j (0 : Fin 1)) = norm3 (val_main_v52 (F := Ideal) x0 (ix2 n j)) := by
  have hb : idx_main_v53 (ix3 n j (0 : Fin 1)) = ix2 n j := by
    funext a
    match a with
    | ⟨0, _⟩ => rfl
    | ⟨1, _⟩ => rfl
  rw [val_main_call14_v4_apply, val_main_call14_v1_apply, val_main_call14_v3_apply, val_main_v53_apply, hb,
    val_main_call14_v0_apply, val_main_call14_c_apply, val_main_call14_v2_apply, val_main_call14_c_0_apply]
  rfl

/-- The row take's bounds bit at (n, j). -/
theorem p_rinb (x0 : (⟨S2000000x16x3, .f32⟩ : BufTy).Contents (Elt Ideal)) (n : Fin 2000000) (j : Fin 3) :
    val_main_call14_v11 (F := Ideal) x0 (ix2 n j) = inb3 (val_main_v52 (F := Ideal) x0 (ix2 n j)) := by
  unfold val_main_call14_v11
  rw [Cert.Lib.TakeAlong.reduce_and_unit_apply, val_main_call14_c_3_apply, val_main_call14_v10_apply, val_main_call14_v6_apply,
    val_main_call14_v9_apply, p_ridx, val_main_call14_v5_apply, val_main_call14_c_2_apply, val_main_call14_v8_apply,
    val_main_call14_v7_apply, val_main_call14_c_1_apply]
  rfl

/-- The gathered rows at (n, j, f): the group's array at the sorted position. -/
theorem p_gathered (x0 : (⟨S2000000x16x3, .f32⟩ : BufTy).Contents (Elt Ideal)) (n : Fin 2000000) (j f : Fin 3) :
    val_main_v54 (F := Ideal) x0 (ix3 n j f) = val_main_v45 (F := Ideal) x0 (ix3 n (sortedFrom (sbefore fun i => val_main_v49 (F := Ideal) x0 (ix2 n i)) j) f) := by
  have hb : idx_main_call14_v13 (ix3 n j f) = ix2 n j := by
    funext a
    match a with
    | ⟨0, _⟩ => rfl
    | ⟨1, _⟩ => rfl
  -- the index is in bounds: the select takes the gathered value
  rw [val_main_v54_apply, val_main_call14_v13_apply, hb, p_rinb, p_order, inb3_pos, select_one]
  unfold val_main_call14_v12
  refine (Cert.Lib.TakeAlong.gather_rows_apply (N := 2000000) (k := 3) (C := 3) (by decide) _ _ _ n j f).trans ?_
  -- the clamped start index is the sorted position
  refine congrArg (fun m => val_main_v45 (F := Ideal) x0 (ix3 n m f)) (Fin.ext ?_)
  show min (val_main_call14_v4 (F := Ideal) x0 (ix3 n j (0 : Fin 1))).toInt.toNat (3 - 1) = _
  rw [p_ridx, p_order, norm3_pos]
  exact clamp3_pos _

/-- The cell take's normalised index at (n, j, 0). -/
theorem p_cidx (x0 : (⟨S2000000x16x3, .f32⟩ : BufTy).Contents (Elt Ideal)) (n : Fin 2000000) (j : Fin 3) :
    val_main_call15_v5 (F := Ideal) x0 (ix3 n j (0 : Fin 1)) = norm3 (val_main_v52 (F := Ideal) x0 (ix2 n j)) := by
  have hr : idx_main_call15_v5 (ix3 n j (0 : Fin 1)) = ix2 n j := by
    funext a
    match a with
    | ⟨0, _⟩ => exact Fin.ext (by show ((n.val * 3 + j.val) * 1 + 0) / 3 = n.val; have := j.isLt; omega)
    | ⟨1, _⟩ => exact Fin.ext (by show ((n.val * 3 + j.val) * 1 + 0) % 3 = j.val; have := j.isLt; omega)
  rw [val_main_call15_v5_apply, hr, val_main_call15_v4_apply, val_main_call15_v1_apply, val_main_call15_v3_apply,
    val_main_call15_v0_apply, val_main_call15_c_apply, val_main_call15_v2_apply, val_main_call15_c_0_apply]
  rfl

/-- The cell take's bounds bit at (n, j). -/
theorem p_cinb (x0 : (⟨S2000000x16x3, .f32⟩ : BufTy).Contents (Elt Ideal)) (n : Fin 2000000) (j : Fin 3) :
    val_main_call15_v12 (F := Ideal) x0 (ix2 n j) = inb3 (val_main_v52 (F := Ideal) x0 (ix2 n j)) := by
  unfold val_main_call15_v12
  rw [Cert.Lib.TakeAlong.reduce_and_unit_apply, val_main_call15_c_3_apply, val_main_call15_v11_apply, val_main_call15_v7_apply,
    val_main_call15_v10_apply, p_cidx, val_main_call15_v6_apply, val_main_call15_c_2_apply, val_main_call15_v9_apply,
    val_main_call15_v8_apply, val_main_call15_c_1_apply]
  rfl

/-- The gathered mask at (n, j): the validity bit at the sorted position. -/
theorem p_kept (x0 : (⟨S2000000x16x3, .f32⟩ : BufTy).Contents (Elt Ideal)) (n : Fin 2000000) (j : Fin 3) :
    val_main_v55 (F := Ideal) x0 (ix2 n j) = val_main_v49 (F := Ideal) x0 (ix2 n (sortedFrom (sbefore fun i => val_main_v49 (F := Ideal) x0 (ix2 n i)) j)) := by
  -- the index is in bounds: the select takes the gathered bit
  rw [val_main_v55_apply, p_cinb, p_order, inb3_pos, select_one]
  unfold val_main_call15_v13
  refine (Cert.Lib.TakeAlong.gather_cells_apply (N := 2000000) (k := 3) (by decide) _ _ _ n j).trans ?_
  -- the clamped start index is the sorted position
  refine congrArg (fun m => val_main_v49 (F := Ideal) x0 (ix2 n m)) (Fin.ext ?_)
  show min (val_main_call15_v5 (F := Ideal) x0 (ix3 n j (0 : Fin 1))).toInt.toNat (3 - 1) = _
  rw [p_cidx, p_order, norm3_pos]
  exact clamp3_pos _

/-- The gathered mask as a number, spread over the features: at (n, j, f) the gathered bit read unsigned. -/
theorem p_keptf (x0 : (⟨S2000000x16x3, .f32⟩ : BufTy).Contents (Elt Ideal)) (n : Fin 2000000) (j f : Fin 3) :
    val_main_v58 (F := Ideal) x0 (ix3 n j f) = ((((val_main_v49 (F := Ideal) x0 (ix2 n (sortedFrom (sbefore fun i => val_main_v49 (F := Ideal) x0 (ix2 n i)) j))).toNat : ℝ)) : EReal) := by
  have hf : idx_main_v58 (ix3 n j f) = ix3 n j (0 : Fin 1) := by
    funext a
    match a with
    | ⟨0, _⟩ => rfl
    | ⟨1, _⟩ => rfl
    | ⟨2, _⟩ => rfl
  have hb : idx_main_v56 (ix3 n j (0 : Fin 1)) = ix2 n j := by
    funext a
    match a with
    | ⟨0, _⟩ => rfl
    | ⟨1, _⟩ => rfl
  rw [val_main_v58_apply, hf, val_main_v57_apply, val_main_v56_apply, hb, p_kept]
  rfl

/-- The group's result at (n, j, f) over the stages' own bit and value vectors. -/
theorem p_slot (x0 : (⟨S2000000x16x3, .f32⟩ : BufTy).Contents (Elt Ideal)) (n : Fin 2000000) (j f : Fin 3) :
    val_main_v59 (F := Ideal) x0 (ix3 n j f)
      = racc (fun i : Fin 3 => val_main_v49 (F := Ideal) x0 (ix2 n i))
          (fun i : Fin 3 => x0 (ix3 n ⟨12 + i.val, by have := i.isLt; omega⟩ f)) j := by
  rw [val_main_v59_apply, p_gathered, p_keptf, p_coll, Ideal.mulf_def]
  rfl

end Triples

/-- Slot j, feature f of event n's fourth group (objects 12–14). -/
theorem photons_apply (x0 : (⟨S2000000x16x3, .f32⟩ : BufTy).Contents (Elt Ideal)) (n : Fin 2000000) (j : Fin 3) (f : Fin 3) :
    val_main_v59 (F := Ideal) x0 (ix3 n j f)
      = racc ![vbit (x0 (ix3 n 12 0)), vbit (x0 (ix3 n 13 0)), vbit (x0 (ix3 n 14 0))]
          ![x0 (ix3 n 12 f), x0 (ix3 n 13 f), x0 (ix3 n 14 f)] j := by
  have hb : (fun i : Fin 3 => val_main_v49 (F := Ideal) x0 (ix2 n i))
      = ![vbit (x0 (ix3 n 12 0)), vbit (x0 (ix3 n 13 0)), vbit (x0 (ix3 n 14 0))] := by
    funext i
    rw [Triples.p_mask]
    fin_cases i <;> rfl
  have hv : (fun i : Fin 3 => x0 (ix3 n ⟨12 + i.val, by have := i.isLt; omega⟩ f))
      = ![x0 (ix3 n 12 f), x0 (ix3 n 13 f), x0 (ix3 n 14 f)] := by
    funext i
    fin_cases i <;> rfl
  rw [Triples.p_slot, hb, hv]

end Cert.Reorder

end
-- ==== Proof.RefArray.lean ====
/-
  The reference's result array is `GR` of its argument: the last operation lays the four groups' results and the
  untouched sixteenth object end to end along the object axis, so entry (n, o, f) is the piece holding object o read at
  o less the objects before that piece.
-/
import proofs.«105476_j10806137717520_1_alg».proof.Proof.RefRead
import proofs.«105476_j10806137717520_1_alg».proof.Proof.RefJets
import proofs.«105476_j10806137717520_1_alg».proof.Proof.RefTriples
import proofs.«105476_j10806137717520_1_alg».proof.Proof.SpecArray
import Idealize.ShloMosaic.Lib.ValueIdx
import Idealize.ShloMosaic.Lib.Pipeline.Value

noncomputable section

namespace Cert.Reorder

open Idealize.ShloMosaic Idealize.ShloMosaic.ValueIdx Cert.ReferenceIdeal Cert.ReferenceIdeal.Read

/-- Off the object axis an index of a piece and the index of the whole array have the same coordinates. -/
theorem off_axis {k : ℕ} (n : Fin 2000000) (o' : Fin k) (o : Fin 16) (f : Fin 3) (hr : (3 : ℕ) = 3) :
    ∀ b : Fin 3, b.cast hr ≠ (1 : Fin 3) →
      ((ix3 n o' f : (⟨3, ![2000000, k, 3]⟩ : Shape).Idx) b).val
        = ((ix3 n o f : (⟨3, ![2000000, 16, 3]⟩ : Shape).Idx) (b.cast hr)).val := by
  intro b hb
  match b with
  | ⟨0, _⟩ => rfl
  | ⟨1, _⟩ => exact absurd rfl hb
  | ⟨2, _⟩ => rfl

/-- The reference's result at (n, o, f) is the event n as the reference sorts it, at (o, f). -/
theorem ref_apply (x0 : (⟨S2000000x16x3, .f32⟩ : BufTy).Contents (Elt Ideal)) (n : Fin 2000000) (o : Fin 16) (f : Fin 3) :
    val_main_v61 (F := Ideal) x0 (ix3 n o f) = rowR (event x0 n) o f := by
  -- reading the concatenation of the five pieces at an index of piece k
  have piece := concatenate_apply_piece (t := S2000000x16x3) (1 : Fin 3)
    [⟨S2000000x6x3, val_main_v14 (F := Ideal) x0⟩, ⟨S2000000x3x3, val_main_v29 (F := Ideal) x0⟩,
      ⟨S2000000x3x3, val_main_v44 (F := Ideal) x0⟩, ⟨S2000000x3x3, val_main_v59 (F := Ideal) x0⟩,
      ⟨S2000000x1x3, val_main_v60 (F := Ideal) x0⟩]
    Facts₀.concatenates_S2000000x6x3_S2000000x3x3_S2000000x3x3_S2000000x3x3_S2000000x1x3_S2000000x16x3_d1
  unfold val_main_v61 rowR
  split_ifs with h1 h2 h3 h4
  · refine (piece (ix3 n o f) 0 (by simp) S2000000x6x3 (val_main_v14 (F := Ideal) x0) rfl rfl 0 rfl
      (ix3 n (⟨o.val, h1⟩ : Fin 6) f) (off_axis n _ o f rfl) (by show 0 + o.val = o.val; omega)).trans ?_
    exact jets_apply x0 n ⟨o.val, h1⟩ f
  · refine (piece (ix3 n o f) 1 (by simp) S2000000x3x3 (val_main_v29 (F := Ideal) x0) rfl rfl 6 rfl
      (ix3 n (⟨o.val - 6, by omega⟩ : Fin 3) f) (off_axis n _ o f rfl) (by show 6 + (o.val - 6) = o.val; omega)).trans ?_
    exact electrons_apply x0 n ⟨o.val - 6, by omega⟩ f
  · refine (piece (ix3 n o f) 2 (by simp) S2000000x3x3 (val_main_v44 (F := Ideal) x0) rfl rfl 9 rfl
      (ix3 n (⟨o.val - 9, by omega⟩ : Fin 3) f) (off_axis n _ o f rfl) (by show 9 + (o.val - 9) = o.val; omega)).trans ?_
    exact muons_apply x0 n ⟨o.val - 9, by omega⟩ f
  · refine (piece (ix3 n o f) 3 (by simp) S2000000x3x3 (val_main_v59 (F := Ideal) x0) rfl rfl 12 rfl
      (ix3 n (⟨o.val - 12, by omega⟩ : Fin 3) f) (off_axis n _ o f rfl) (by show 12 + (o.val - 12) = o.val; omega)).trans ?_
    exact photons_apply x0 n ⟨o.val - 12, by omega⟩ f
  · have ho : o = 15 := Fin.ext (by have := o.isLt; show o.val = 15; omega)
    subst ho
    refine (piece (ix3 n (15 : Fin 16) f) 4 (by simp) S2000000x1x3 (val_main_v60 (F := Ideal) x0) rfl rfl 15 rfl
      (ix3 n (0 : Fin 1) f) (off_axis n _ (15 : Fin 16) f rfl) (by show 15 + 0 = 15; rfl)).trans ?_
    rw [val_main_v60_apply]
    show x0 (idx_main_v60 (ix3 n (0 : Fin 1) f)) = x0 (ix3 n (15 : Fin 16) f)
    congr 1
    funext a
    match a with
    | ⟨0, _⟩ => rfl
    | ⟨1, _⟩ => rfl
    | ⟨2, _⟩ => rfl

/-- The reference's result array is `GR` of the argument array. -/
theorem ref_value (x0 : (⟨S2000000x16x3, .f32⟩ : BufTy).Contents (Elt Ideal)) :
    val_main_v61 (F := Ideal) x0 = GR x0 := by
  funext i
  obtain ⟨n, o, f, rfl⟩ : ∃ (n : Fin 2000000) (o : Fin 16) (f : Fin 3), i = ix3 n o f := ⟨i 0, i 1, i 2, eq_ix3 i⟩
  exact ref_apply x0 n o f

end Cert.Reorder

end
-- ==== Proof.LibStableBoolSort.lean ====
/-
  The stable insertion sort under a two-valued key.

  When the order compared is "the first element is marked and the second is not", for a Boolean marking of the
  elements, the stable insertion sort of a list is the list's marked elements, in the list's order, followed by its
  unmarked elements, in the list's order. For the sorting permutation of `n` positions this says: while `j` is below the
  number of marked positions, the position sorted to `j` is the j-th marked position; from there on it is an unmarked one.
-/
import Idealize.ShloMosaic.PureOps.ShapeOps

namespace Cert.Lib.StableBool

open Idealize.ShloMosaic

variable {ι : Type}

/-- Inserting `a` into a list made of a block `P` of elements that all sort before `a`, followed by a block `Q` of
    elements none of which sorts before `a`, puts `a` between the two blocks. -/
theorem insertBefore_append (before : ι → ι → Bool) (a : ι) (P Q : List ι)
    (hP : ∀ b ∈ P, before b a = true) (hQ : ∀ b ∈ Q, before b a = false) :
    insertBefore before a (P ++ Q) = P ++ a :: Q := by
  induction P with
  | nil =>
    cases Q with
    | nil => rfl
    | cons q Q => simp [insertBefore, hQ q (List.mem_cons_self)]
  | cons p P ih =>
    have hp : before p a = true := hP p (List.mem_cons_self)
    have ih' := ih (fun b hb => hP b (List.mem_cons_of_mem _ hb))
    simp [insertBefore, hp, ih']

/-- The stable insertion sort under "marked before unmarked" lists the marked elements first and the unmarked ones after
    them, each block in the order of the list sorted. -/
theorem stableSort_eq_filter_append (before : ι → ι → Bool) (m : ι → Bool)
    (hb : ∀ x y, before x y = (m x && !m y)) (l : List ι) :
    stableSort before l = l.filter m ++ l.filter (fun x => !m x) := by
  induction l with
  | nil => rfl
  | cons a l ih =>
    rw [stableSort, ih]
    cases hma : m a with
    | true =>
      -- nothing sorts before a marked element: it goes to the front
      have h := insertBefore_append before a [] (l.filter m ++ l.filter (fun x => !m x))
        (fun b hb' => absurd hb' (List.not_mem_nil)) (fun b _ => by rw [hb, hma]; simp)
      simpa [List.filter_cons, hma] using h
    | false =>
      -- exactly the marked elements sort before an unmarked one: it goes right after their block
      have h := insertBefore_append before a (l.filter m) (l.filter (fun x => !m x))
        (fun b hb' => by rw [hb, hma, (List.mem_filter.mp hb').2]; rfl)
        (fun b hb' => by
          have : (!m b) = true := (List.mem_filter.mp hb').2
          rw [hb, hma]; simpa using this)
      simpa [List.filter_cons, hma] using h

/-- The sorting permutation of `n` positions under "marked before unmarked": the marked positions in increasing order,
    then the unmarked positions in increasing order. -/
theorem sortPositions_eq (n : ℕ) (before : Fin n → Fin n → Bool) (m : Fin n → Bool)
    (hb : ∀ x y, before x y = (m x && !m y)) :
    sortPositions n before = (List.finRange n).filter m ++ (List.finRange n).filter (fun x => !m x) :=
  stableSort_eq_filter_append before m hb (List.finRange n)

/-- Entry `j` of the sorting permutation is the position sorted to `j`. -/
theorem getElem?_sortPositions {n : ℕ} (before : Fin n → Fin n → Bool) (j : Fin n) :
    (sortPositions n before)[j.val]? = some (sortedFrom before j) := by
  have hj : j.val < (sortPositions n before).length := by rw [length_sortPositions]; exact j.isLt
  rw [List.getElem?_eq_getElem hj]
  rfl

/-- Below the number of marked positions, the position sorted to `j` is the j-th marked position. -/
theorem getElem?_filter_of_lt {n : ℕ} (before : Fin n → Fin n → Bool) (m : Fin n → Bool)
    (hb : ∀ x y, before x y = (m x && !m y)) (j : Fin n) (hj : j.val < ((List.finRange n).filter m).length) :
    ((List.finRange n).filter m)[j.val]? = some (sortedFrom before j) := by
  have h := getElem?_sortPositions before j
  rw [sortPositions_eq n before m hb, List.getElem?_append_left hj] at h
  exact h

/-- Below the number of marked positions, the position sorted to `j` is marked. -/
theorem marked_sortedFrom_of_lt {n : ℕ} (before : Fin n → Fin n → Bool) (m : Fin n → Bool)
    (hb : ∀ x y, before x y = (m x && !m y)) (j : Fin n) (hj : j.val < ((List.finRange n).filter m).length) :
    m (sortedFrom before j) = true :=
  (List.mem_filter.mp (List.mem_of_getElem? (getElem?_filter_of_lt before m hb j hj))).2

/-- At or above the number of marked positions, the position sorted to `j` is unmarked. -/
theorem unmarked_sortedFrom_of_ge {n : ℕ} (before : Fin n → Fin n → Bool) (m : Fin n → Bool)
    (hb : ∀ x y, before x y = (m x && !m y)) (j : Fin n) (hj : ((List.finRange n).filter m).length ≤ j.val) :
    m (sortedFrom before j) = false := by
  have h := getElem?_sortPositions before j
  rw [sortPositions_eq n before m hb, List.getElem?_append_right hj] at h
  have := (List.mem_filter.mp (List.mem_of_getElem? h)).2
  simpa using this

/-- At or above the number of marked positions, the list of marked positions has no entry `j`. -/
theorem getElem?_filter_of_ge {n : ℕ} (m : Fin n → Bool) (j : ℕ) (hj : ((List.finRange n).filter m).length ≤ j) :
    ((List.finRange n).filter m)[j]? = none :=
  List.getElem?_eq_none hj

end Cert.Lib.StableBool
-- ==== Proof.Slots.lean ====
/-
  The two ways a group's slot is computed are one value: the kernel's weighted sum and the reference's sorted object
  times its validity both give the j-th valid object of the group, or zero when there is none.
-/
import proofs.«105476_j10806137717520_1_alg».proof.Proof.Spec
import Idealize.ShloMosaic.PureOps.Ideal.Laws
import proofs.«105476_j10806137717520_1_alg».proof.Proof.LibStableBoolSort

noncomputable section

namespace Cert.Reorder

open Idealize.ShloMosaic

/-! ### The reference's slot -/

/-- Position `i` sorts strictly before position `i'` exactly when `i` is valid and `i'` is not: the keys are 0 and 1. -/
theorem sbefore_eq {k : ℕ} (b : Fin k → BitVec 1) (i i' : Fin k) :
    sbefore b i i' = ((b i == 1#1) && !(b i' == 1#1)) := by
  unfold sbefore skey
  rcases BitVec.eq_zero_or_eq_one (b i) with h | h <;> rcases BitVec.eq_zero_or_eq_one (b i') with h' | h' <;>
    rw [h, h'] <;> decide

/-- The reference's slot: the stable sort by the 0/1 key lists the valid positions first and in order, so position `j` of
    the sorted order is the j-th valid one while there is one, and an invalid one (times zero) after that. -/
theorem racc_eq {k : ℕ} (b : Fin k → BitVec 1) (v : Fin k → EReal) (j : Fin k) :
    racc b v j = compact (fun i => b i == 1#1) v j.val := by
  unfold racc compact
  by_cases hj : j.val < ((List.finRange k).filter (fun i => b i == 1#1)).length
  · -- the sorted position is the j-th valid one; its validity reads as the number one
    have h1 := Cert.Lib.StableBool.getElem?_filter_of_lt (sbefore b) (fun i => b i == 1#1) (sbefore_eq b) j hj
    have h2 := Cert.Lib.StableBool.marked_sortedFrom_of_lt (sbefore b) (fun i => b i == 1#1) (sbefore_eq b) j hj
    have h3 : b (sortedFrom (sbefore b) j) = 1#1 := by simpa using h2
    rw [h1, h3]
    simp
  · -- no j-th valid position: the sorted position is invalid, its validity reads as zero
    have hj' := Nat.le_of_not_lt hj
    have h1 := Cert.Lib.StableBool.getElem?_filter_of_ge (fun i => b i == 1#1) j.val hj'
    have h2 := Cert.Lib.StableBool.unmarked_sortedFrom_of_ge (sbefore b) (fun i => b i == 1#1) (sbefore_eq b) j hj'
    have h3 : b (sortedFrom (sbefore b) j) = 0#1 := by
      rcases BitVec.eq_zero_or_eq_one (b (sortedFrom (sbefore b) j)) with h | h
      · exact h
      · simp [h] at h2
    rw [h1, h3]
    simp

/-! ### The kernel's slot -/

/-- The weight is one when the object is valid and its running count less one is the slot, and zero otherwise. -/
theorem selw_eq (b : BitVec 1) (run J : BitVec 32) :
    selw b run J = if b = 1#1 ∧ run - 1#32 = J then 1 else 0 := by
  unfold selw IntOp.andi IntOp.cmpi IntOp.subi
  rcases BitVec.eq_zero_or_eq_one b with rfl | rfl
  · simp
  · by_cases h : run - 1#32 = J
    · simp [h]
    · have hb : (run - 1#32 == J) = false := by simpa using h
      simp [hb, h]

/-- The value of the `j`-th valid entry of a list of (validity bit, value) pairs; zero when there is none. -/
def pick (l : List (BitVec 1 × EReal)) (j : ℕ) : EReal :=
  (((l.filter (fun p => p.1 == 1#1)).map Prod.snd)[j]?).getD 0

theorem pick_nil (j : ℕ) : pick [] j = 0 := by simp [pick]

theorem pick_cons_zero (v : EReal) (l : List (BitVec 1 × EReal)) (j : ℕ) : pick ((0#1, v) :: l) j = pick l j := by
  simp [pick]

theorem pick_cons_one_zero (v : EReal) (l : List (BitVec 1 × EReal)) : pick ((1#1, v) :: l) 0 = v := by
  simp [pick]

theorem pick_cons_one_succ (v : EReal) (l : List (BitVec 1 × EReal)) (j : ℕ) :
    pick ((1#1, v) :: l) (j + 1) = pick l j := by
  simp [pick]

/-- The kernel's weighted sum over a list of (validity bit, value) pairs: each value times its weight for slot `J`, the
    count of valid entries running on from `run`. -/
def wsum (J : BitVec 32) : BitVec 32 → List (BitVec 1 × EReal) → EReal
  | _, [] => 0
  | run, p :: l => selw p.1 (run + BitVec.setWidth 32 p.1) J * p.2 + wsum J (run + BitVec.setWidth 32 p.1) l

/-- Once the running count has passed the slot, every further weight is zero. -/
theorem wsum_eq_zero (J : BitVec 32) (l : List (BitVec 1 × EReal)) :
    ∀ run : BitVec 32, run.toNat + l.length < 2 ^ 32 → J.toNat < run.toNat → wsum J run l = 0 := by
  induction l with
  | nil => intro run _ _; rfl
  | cons p l ih =>
    intro run hw h
    obtain ⟨b, v⟩ := p
    simp only [List.length_cons] at hw
    rcases BitVec.eq_zero_or_eq_one b with rfl | rfl
    · have h0 : run + BitVec.setWidth 32 0#1 = run := by simp
      simp only [wsum, h0, selw_eq]
      rw [ih run (by omega) h]
      simp
    · have h1 : BitVec.setWidth 32 1#1 = 1#32 := by decide
      have hn : (run + 1#32).toNat = run.toNat + 1 := by
        rw [BitVec.toNat_add_of_lt] <;> simp <;> omega
      have hne : ¬ (run + 1#32 - 1#32 = J) := by
        rw [BitVec.add_sub_cancel]; intro e; rw [e] at h; omega
      simp only [wsum, h1, selw_eq, hne, and_false, if_false]
      rw [ih (run + 1#32) (by omega) (by omega)]
      simp

/-- While the running count has not passed the slot, the weighted sum is the value of the valid entry still
    `J - run` valid entries ahead, or zero when the list has no such entry. Nothing wraps: the count stays below
    `2 ^ 32`. -/
theorem wsum_eq_pick (J : BitVec 32) (l : List (BitVec 1 × EReal)) :
    ∀ run : BitVec 32, run.toNat + l.length < 2 ^ 32 → run.toNat ≤ J.toNat →
      wsum J run l = pick l (J.toNat - run.toNat) := by
  induction l with
  | nil => intro run _ _; rw [pick_nil]; rfl
  | cons p l ih =>
    intro run hw h
    obtain ⟨b, v⟩ := p
    simp only [List.length_cons] at hw
    rcases BitVec.eq_zero_or_eq_one b with rfl | rfl
    · have h0 : run + BitVec.setWidth 32 0#1 = run := by simp
      simp only [wsum, h0, selw_eq]
      rw [ih run (by omega) h, pick_cons_zero]
      simp
    · have h1 : BitVec.setWidth 32 1#1 = 1#32 := by decide
      have hn : (run + 1#32).toNat = run.toNat + 1 := by
        rw [BitVec.toNat_add_of_lt] <;> simp <;> omega
      simp only [wsum, h1, selw_eq, BitVec.add_sub_cancel, true_and]
      by_cases e : run = J
      · -- this is the valid entry of the slot: weight one, and the rest is past the slot
        subst e
        rw [wsum_eq_zero run l (run + 1#32) (by omega) (by omega), Nat.sub_self, pick_cons_one_zero]
        simp
      · -- a valid entry before the slot: weight zero, one valid entry fewer ahead
        have hlt : run.toNat < J.toNat := by
          rcases Nat.lt_or_ge run.toNat J.toNat with h' | h'
          · exact h'
          · exact absurd (BitVec.eq_of_toNat_eq (Nat.le_antisymm h h')) e
        have hs : J.toNat - run.toNat = (J.toNat - (run + 1#32).toNat) + 1 := by omega
        rw [ih (run + 1#32) (by omega) (by omega), hs, pick_cons_one_succ]
        simp [e]

/-- The j-th valid object of a group indexed by `Fin k` is the j-th valid entry of the list of its
    (validity bit, value) pairs. -/
theorem compact_eq_pick {k : ℕ} (b : Fin k → BitVec 1) (v : Fin k → EReal) (j : ℕ) :
    compact (fun i => b i == 1#1) v j = pick ((List.finRange k).map (fun i => (b i, v i))) j := by
  unfold compact pick
  rw [List.filter_map, List.map_map, List.getElem?_map]
  have hf : ((fun p : BitVec 1 × EReal => p.1 == 1#1) ∘ fun i => (b i, v i)) = fun i => b i == 1#1 := rfl
  rw [hf]
  cases ((List.finRange k).filter fun i => b i == 1#1)[j]? <;> rfl

/-- The kernel's slot of a group of three. -/
theorem kacc3_eq (J : BitVec 32) (hJ : J.toNat < 3) (b0 b1 b2 : BitVec 1) (v0 v1 v2 : EReal) :
    kacc3 J b0 b1 b2 v0 v1 v2 = compact (fun i : Fin 3 => ![b0, b1, b2] i == 1#1) ![v0, v1, v2] J.toNat := by
  have _ := hJ
  have hc : (List.finRange 3).map (fun i => (![b0, b1, b2] i, ![v0, v1, v2] i))
      = [(b0, v0), (b1, v1), (b2, v2)] := rfl
  have hk : kacc3 J b0 b1 b2 v0 v1 v2 = wsum J 0#32 [(b0, v0), (b1, v1), (b2, v2)] := by
    simp [kacc3, wsum, IntOp.addi, add_assoc, fzero]
  rw [compact_eq_pick, hc, hk, wsum_eq_pick J _ 0#32 (by simp) (by simp)]
  simp

/-- The kernel's slot of a group of six. -/
theorem kacc6_eq (J : BitVec 32) (hJ : J.toNat < 6) (b0 b1 b2 b3 b4 b5 : BitVec 1) (v0 v1 v2 v3 v4 v5 : EReal) :
    kacc6 J b0 b1 b2 b3 b4 b5 v0 v1 v2 v3 v4 v5
      = compact (fun i : Fin 6 => ![b0, b1, b2, b3, b4, b5] i == 1#1) ![v0, v1, v2, v3, v4, v5] J.toNat := by
  have _ := hJ
  have hc : (List.finRange 6).map (fun i => (![b0, b1, b2, b3, b4, b5] i, ![v0, v1, v2, v3, v4, v5] i))
      = [(b0, v0), (b1, v1), (b2, v2), (b3, v3), (b4, v4), (b5, v5)] := rfl
  have hk : kacc6 J b0 b1 b2 b3 b4 b5 v0 v1 v2 v3 v4 v5
      = wsum J 0#32 [(b0, v0), (b1, v1), (b2, v2), (b3, v3), (b4, v4), (b5, v5)] := by
    simp [kacc6, wsum, IntOp.addi, add_assoc, fzero]
  rw [compact_eq_pick, hc, hk, wsum_eq_pick J _ 0#32 (by simp) (by simp)]
  simp

end Cert.Reorder

end
-- ==== Proof.SpecEq.lean ====
/-
  The kernel's weighted sums and the reference's sorted objects are the specification: slot by slot each group's
  kernel sum and reference product is the j-th valid object or zero, so the three whole-array forms are one function.
-/
import proofs.«105476_j10806137717520_1_alg».proof.Proof.SpecArray
import proofs.«105476_j10806137717520_1_alg».proof.Proof.Slots

noncomputable section

namespace Cert.Reorder

open Idealize.ShloMosaic Idealize.ShloMosaic.ValueIdx

/-- A slot number below 16 survives the passage through a 32-bit word. -/
theorem toNat_ofNat_small (n : ℕ) (hn : n < 16) : (BitVec.ofNat 32 n).toNat = n := by
  rw [BitVec.toNat_ofNat]; exact Nat.mod_eq_of_lt (by omega)

/-- One event as the kernel sums it is the event compacted. -/
theorem rowK_eq_rowG (r : Fin 16 → Fin 3 → EReal) (o : Fin 16) (f : Fin 3) : rowK r o f = rowG r o f := by
  have ho : o.val < 16 := o.isLt
  unfold rowK rowG
  split_ifs with h1 h2 h3 h4
  · rw [kacc6_eq _ (by rw [toNat_ofNat_small _ ho]; exact h1), toNat_ofNat_small _ ho]
  · rw [kacc3_eq _ (by rw [toNat_ofNat_small _ (by omega)]; omega), toNat_ofNat_small _ (by omega)]
  · rw [kacc3_eq _ (by rw [toNat_ofNat_small _ (by omega)]; omega), toNat_ofNat_small _ (by omega)]
  · rw [kacc3_eq _ (by rw [toNat_ofNat_small _ (by omega)]; omega), toNat_ofNat_small _ (by omega)]
  · rfl

/-- One event as the reference sorts it is the event compacted. -/
theorem rowR_eq_rowG (r : Fin 16 → Fin 3 → EReal) (o : Fin 16) (f : Fin 3) : rowR r o f = rowG r o f := by
  unfold rowR rowG
  split_ifs with h1 h2 h3 h4
  · rw [racc_eq]
  · rw [racc_eq]
  · rw [racc_eq]
  · rw [racc_eq]
  · rfl

/-- The array as the kernel sums it is the specification. -/
theorem GK_eq_G (x : SX.Idx → EReal) : GK x = G x := funext fun i => rowK_eq_rowG _ _ _

/-- The array as the reference sorts it is the specification. -/
theorem GR_eq_G (x : SX.Idx → EReal) : GR x = G x := funext fun i => rowR_eq_rowG _ _ _

end Cert.Reorder

end
-- ==== Proof.lean ====
/-
  The certificate of a per-event compaction. An event is 16 objects of 3 features; objects 0–5, 6–8, 9–11 and 12–14
  form four groups, an object of a group is valid when its first feature is positive, and the result lists each
  group's valid objects first and in order, fills the group's other slots with zeros, and keeps object 15.

  The kernel works the array as rows of 48 entries, 5000 rows a block: slot j of a group is the sum over the group's
  objects of the object times a weight that is one exactly when the object is valid and the number of valid objects up
  to it, less one, is j. The reference sorts each group's objects stably by the key 0 (valid) / 1 (not), gathers the
  objects and their validity in that order, and multiplies the two. Over the extended reals both are the j-th valid
  object of the group, or zero when there is none: a stable sort by a two-valued key lists the first class in order and
  then the second, and 0 · x = x · 0 = 0 and 1 · x = x for every extended real x, so no finiteness is needed. The two
  programs' result arrays are therefore one function `G` of the argument array (Proof/Spec.lean, Proof/SpecArray.lean,
  Proof/SpecEq.lean over Proof/Slots.lean; the kernel's array in Proof/KernelArray.lean over Proof/KernelBlock.lean, the
  reference's in Proof/RefArray.lean over Proof/RefJets.lean and Proof/RefTriples.lean). The ideal pass rewrote nothing,
  so the kernel's idealization is its own text read over the extended reals.
-/
import proofs.«105476_j10806137717520_1_alg».proof.Defs
import proofs.«105476_j10806137717520_1_alg».proof.Proof.Gen.Kernel
import proofs.«105476_j10806137717520_1_alg».proof.Proof.Gen.Kernel.Skeleton
import proofs.«105476_j10806137717520_1_alg».proof.Proof.Gen.Kernel.Launch
import proofs.«105476_j10806137717520_1_alg».proof.Proof.Gen.Kernel.Points
import proofs.«105476_j10806137717520_1_alg».proof.Proof.Gen.Kernel.Frame
import proofs.«105476_j10806137717520_1_alg».proof.Proof.Gen.KernelIdeal
import proofs.«105476_j10806137717520_1_alg».proof.Proof.Gen.KernelIdeal.Skeleton
import proofs.«105476_j10806137717520_1_alg».proof.Proof.Gen.KernelIdeal.Launch
import proofs.«105476_j10806137717520_1_alg».proof.Proof.Gen.KernelIdeal.Points
import proofs.«105476_j10806137717520_1_alg».proof.Proof.Gen.KernelIdeal.Frame
import proofs.«105476_j10806137717520_1_alg».proof.Proof.Gen.ReferenceIdeal
import proofs.«105476_j10806137717520_1_alg».proof.Proof.Gen.Pre_finite_inputs
import proofs.«105476_j10806137717520_1_alg».proof.Proof.RefRun
import proofs.«105476_j10806137717520_1_alg».proof.Proof.RefRead
import proofs.«105476_j10806137717520_1_alg».proof.Proof.KernelArray
import proofs.«105476_j10806137717520_1_alg».proof.Proof.RefArray
import proofs.«105476_j10806137717520_1_alg».proof.Proof.SpecEq
import Idealize.ShloMosaic.Adequacy
import Idealize.ShloMosaic.Init

noncomputable section

namespace Cert.Proof

open Idealize.ShloMosaic Idealize.SL.Sem Cert.Reorder

/-- The kernel as printed runs to the end and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the argument both programs end with the result array at `G` of the argument array:
    the kernel at the array as it sums it, the reference at the array as it sorts it, and both are `G`. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (GK_eq_G _), (h c).2⟩) (kernel_value m ρ)
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v61_eq, ref_value, GR_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
